-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x94 : Shape := ⟨2, ![524288, 94]⟩
abbrev S12x32 : Shape := ⟨2, ![12, 32]⟩
abbrev S32 : Shape := ⟨1, ![32]⟩
abbrev S6x16 : Shape := ⟨2, ![6, 16]⟩
abbrev S16 : Shape := ⟨1, ![16]⟩
abbrev S2x16 : Shape := ⟨2, ![2, 16]⟩
abbrev S36x32 : Shape := ⟨2, ![36, 32]⟩
abbrev S12x16 : Shape := ⟨2, ![12, 16]⟩
abbrev S20x32 : Shape := ⟨2, ![20, 32]⟩
abbrev S160 : Shape := ⟨1, ![160]⟩
abbrev S160x128 : Shape := ⟨2, ![160, 128]⟩
abbrev S128 : Shape := ⟨1, ![128]⟩
abbrev S_ : Shape := ⟨0, ![]⟩

class Facts : Prop where
  bcast_S_S524288x94 : S_.BroadcastsInDim S524288x94 (![] : Fin 0 → Fin S524288x94.rank)
  reducesTo_S524288x94_S_d0_1 : S524288x94.ReducesTo [0, 1] S_
  h_S_ : 0 < S_.numel
  bcast_S_S12x32 : S_.BroadcastsInDim S12x32 (![] : Fin 0 → Fin S12x32.rank)
  reducesTo_S12x32_S_d0_1 : S12x32.ReducesTo [0, 1] S_
  bcast_S_S32 : S_.BroadcastsInDim S32 (![] : Fin 0 → Fin S32.rank)
  reducesTo_S32_S_d0 : S32.ReducesTo [0] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S2x16 : S_.BroadcastsInDim S2x16 (![] : Fin 0 → Fin S2x16.rank)
  reducesTo_S2x16_S_d0_1 : S2x16.ReducesTo [0, 1] S_
  bcast_S_S36x32 : S_.BroadcastsInDim S36x32 (![] : Fin 0 → Fin S36x32.rank)
  reducesTo_S36x32_S_d0_1 : S36x32.ReducesTo [0, 1] S_
  bcast_S_S12x16 : S_.BroadcastsInDim S12x16 (![] : Fin 0 → Fin S12x16.rank)
  reducesTo_S12x16_S_d0_1 : S12x16.ReducesTo [0, 1] S_
  bcast_S_S20x32 : S_.BroadcastsInDim S20x32 (![] : Fin 0 → Fin S20x32.rank)
  reducesTo_S20x32_S_d0_1 : S20x32.ReducesTo [0, 1] S_
  bcast_S_S160 : S_.BroadcastsInDim S160 (![] : Fin 0 → Fin S160.rank)
  reducesTo_S160_S_d0 : S160.ReducesTo [0] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S128 .f32) (main_arg20 : FVec F S128 .f32) (main_v83 : IVec S_ 1) (main_v84 : FVec F S160x128 .f32) (main_cst_32 : FVec F S_ .f32) : IVec S_ 1 :=
  let main_v85 : FVec F S160x128 .f32 := broadcastInDim S160x128 ![] bcast_S_S160x128 main_cst_32
  let main_v86 : IVec S160x128 1 := cmpf .olt main_v84 main_v85
  let main_c_33 : IVec S_ 1 := constantI S_ 1 1#1
  let main_v87 : IVec S_ 1 := (fun x v => Host.reduce IntOp.andi x v reducesTo_S160x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S160 .f32 := Host.absf main_arg15
  let main_cst_28 : FVec F S_ .f32 := constant S_ .f32 0x7F800000#32
  let main_v75 : FVec F S160 .f32 := broadcastInDim S160 ![] bcast_S_S160 main_cst_28
  let main_v76 : IVec S160 1 := cmpf .olt main_v74 main_v75
  let main_c_29 : IVec S_ 1 := constantI S_ 1 1#1
  let main_v77 : IVec S_ 1 := (fun x v => Host.reduce IntOp.andi x v reducesTo_S160_S_d0 h_S_) main_v76 main_c_29
  let main_v78 : IVec S_ 1 := andi main_v73 main_v77
  let main_v79 : FVec F S160 .f32 := Host.absf main_arg16
  let main_cst_30 : FVec F S_ .f32 := constant S_ .f32 0x7F800000#32
  let main_v80 : FVec F S160 .f32 := broadcastInDim S160 ![] bcast_S_S160 main_cst_30
  let main_v81 : IVec S160 1 := cmpf .olt main_v79 main_v80
  let main_c_31 : IVec S_ 1 := constantI S_ 1 1#1
  let main_v82 : IVec S_ 1 := (fun x v => Host.reduce IntOp.andi x v reducesTo_S160_S_d0 h_S_) main_v81 main_c_31
  let main_v83 : IVec S_ 1 := andi main_v78 main_v82
  let main_v84 : FVec F S160x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S12x16 .f32 := Host.absf main_arg11
  let main_cst_20 : FVec F S_ .f32 := constant S_ .f32 0x7F800000#32
  let main_v55 : FVec F S12x16 .f32 := broadcastInDim S12x16 ![] bcast_S_S12x16 main_cst_20
  let main_v56 : IVec S12x16 1 := cmpf .olt main_v54 main_v55
  let main_c_21 : IVec S_ 1 := constantI S_ 1 1#1
  let main_v57 : IVec S_ 1 := (fun x v => Host.reduce IntOp.andi x v reducesTo_S12x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S20x32 .f32 := Host.absf main_arg13
  let main_cst_24 : FVec F S_ .f32 := constant S_ .f32 0x7F800000#32
  let main_v65 : FVec F S20x32 .f32 := broadcastInDim S20x32 ![] bcast_S_S20x32 main_cst_24
  let main_v66 : IVec S20x32 1 := cmpf .olt main_v64 main_v65
  let main_c_25 : IVec S_ 1 := constantI S_ 1 1#1
  let main_v67 : IVec S_ 1 := (fun x v => Host.reduce IntOp.andi x v reducesTo_S20x32_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S2x16 .f32) (main_arg8 : FVec F S16 .f32) (main_arg9 : FVec F S36x32 .f32) (main_arg10 : FVec F S32 .f32) (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v33 : IVec S_ 1) : IVec S_ 1 :=
  let main_v34 : FVec F S2x16 .f32 := Host.absf main_arg7
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S36x32 .f32 := Host.absf main_arg9
  let main_cst_16 : FVec F S_ .f32 := constant S_ .f32 0x7F800000#32
  let main_v45 : FVec F S36x32 .f32 := broadcastInDim S36x32 ![] bcast_S_S36x32 main_cst_16
  let main_v46 : IVec S36x32 1 := cmpf .olt main_v44 main_v45
  let main_c_17 : IVec S_ 1 := constantI S_ 1 1#1
  let main_v47 : IVec S_ 1 := (fun x v => Host.reduce IntOp.andi x v reducesTo_S36x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S16 .f32) (main_arg5 : FVec F S6x16 .f32) (main_arg6 : FVec F S16 .f32) (main_arg7 : FVec F S2x16 .f32) (main_arg8 : FVec F S16 .f32) (main_arg9 : FVec F S36x32 .f32) (main_arg10 : FVec F S32 .f32) (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) (main_v13 : IVec S_ 1) (main_v16 : IVec S6x16 1) : IVec S_ 1 :=
  let main_c_5 : IVec S_ 1 := constantI S_ 1 1#1
  let main_v17 : IVec S_ 1 := (fun x v => Host.reduce IntOp.andi x v reducesTo_S6x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S6x16 .f32 := Host.absf main_arg5
  let main_cst_8 : FVec F S_ .f32 := constant S_ .f32 0x7F800000#32
  let main_v25 : FVec F S6x16 .f32 := broadcastInDim S6x16 ![] bcast_S_S6x16 main_cst_8
  let main_v26 : IVec S6x16 1 := cmpf .olt main_v24 main_v25
  let main_c_9 : IVec S_ 1 := constantI S_ 1 1#1
  let main_v27 : IVec S_ 1 := (fun x v => Host.reduce IntOp.andi x v reducesTo_S6x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S524288x94 .f32) (main_arg1 : FVec F S12x32 .f32) (main_arg2 : FVec F S32 .f32) (main_arg3 : FVec F S6x16 .f32) (main_arg4 : FVec F S16 .f32) (main_arg5 : FVec F S6x16 .f32) (main_arg6 : FVec F S16 .f32) (main_arg7 : FVec F S2x16 .f32) (main_arg8 : FVec F S16 .f32) (main_arg9 : FVec F S36x32 .f32) (main_arg10 : FVec F S32 .f32) (main_arg11 : FVec F S12x16 .f32) (main_arg12 : FVec F S16 .f32) (main_arg13 : FVec F S20x32 .f32) (main_arg14 : FVec F S32 .f32) (main_arg15 : FVec F S160 .f32) (main_arg16 : FVec F S160 .f32) (main_arg17 : FVec F S160x128 .f32) (main_arg18 : FVec F S128 .f32) (main_arg19 : FVec F S128 .f32) (main_arg20 : FVec F S128 .f32) : IVec S_ 1 :=
  let main_v0 : FVec F S524288x94 .f32 := Host.absf main_arg0
  let main_cst : FVec F S_ .f32 := constant S_ .f32 0x7F800000#32
  let main_v1 : FVec F S524288x94 .f32 := broadcastInDim S524288x94 ![] bcast_S_S524288x94 main_cst
  let main_v2 : IVec S524288x94 1 := cmpf .olt main_v0 main_v1
  let main_c : IVec S_ 1 := constantI S_ 1 1#1
  let main_v3 : IVec S_ 1 := (fun x v => Host.reduce IntOp.andi x v reducesTo_S524288x94_S_d0_1 h_S_) main_v2 main_c
  let main_v4 : FVec F S12x32 .f32 := Host.absf main_arg1
  let main_cst_0 : FVec F S_ .f32 := constant S_ .f32 0x7F800000#32
  let main_v5 : FVec F S12x32 .f32 := broadcastInDim S12x32 ![] bcast_S_S12x32 main_cst_0
  let main_v6 : IVec S12x32 1 := cmpf .olt main_v4 main_v5
  let main_c_1 : IVec S_ 1 := constantI S_ 1 1#1
  let main_v7 : IVec S_ 1 := (fun x v => Host.reduce IntOp.andi x v reducesTo_S12x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S6x16 .f32 := Host.absf main_arg3
  let main_cst_4 : FVec F S_ .f32 := constant S_ .f32 0x7F800000#32
  let main_v15 : FVec F S6x16 .f32 := broadcastInDim S6x16 ![] bcast_S_S6x16 main_cst_4
  let main_v16 : IVec S6x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S524288x94 : Shape := ⟨2, ![524288, 94]⟩
abbrev S12x32 : Shape := ⟨2, ![12, 32]⟩
abbrev S32 : Shape := ⟨1, ![32]⟩
abbrev S6x16 : Shape := ⟨2, ![6, 16]⟩
abbrev S16 : Shape := ⟨1, ![16]⟩
abbrev S2x16 : Shape := ⟨2, ![2, 16]⟩
abbrev S36x32 : Shape := ⟨2, ![36, 32]⟩
abbrev S12x16 : Shape := ⟨2, ![12, 16]⟩
abbrev S20x32 : Shape := ⟨2, ![20, 32]⟩
abbrev S160 : Shape := ⟨1, ![160]⟩
abbrev S160x128 : Shape := ⟨2, ![160, 128]⟩
abbrev S128 : Shape := ⟨1, ![128]⟩
abbrev S1x32 : Shape := ⟨2, ![1, 32]⟩
abbrev S1x16 : Shape := ⟨2, ![1, 16]⟩
abbrev S1x160 : Shape := ⟨2, ![1, 160]⟩
abbrev S1x128 : Shape := ⟨2, ![1, 128]⟩
abbrev S524288x128 : Shape := ⟨2, ![524288, 128]⟩
abbrev S2048x94 : Shape := ⟨2, ![2048, 94]⟩
abbrev S2048x128 : Shape := ⟨2, ![2048, 128]⟩
abbrev S2048x160 : Shape := ⟨2, ![2048, 160]⟩
abbrev S2048x12 : Shape := ⟨2, ![2048, 12]⟩
abbrev S2048x32 : Shape := ⟨2, ![2048, 32]⟩
abbrev S2048x6 : Shape := ⟨2, ![2048, 6]⟩
abbrev S2048x16 : Shape := ⟨2, ![2048, 16]⟩
abbrev S2048x2 : Shape := ⟨2, ![2048, 2]⟩
abbrev S2048x36 : Shape := ⟨2, ![2048, 36]⟩
abbrev S2048x20 : Shape := ⟨2, ![2048, 20]⟩
abbrev S2048 : Shape := ⟨1, ![2048]⟩
abbrev S2048x1 : Shape := ⟨2, ![2048, 1]⟩

abbrev nBuf : Space → Nat
  | .hbm => 34
  | .vmem => 25
  | .smem => 0
  | _ => 0

abbrev bufTy : (tb : Table) → Fin (tcTables nBuf tb) → BufTy
  | .hbm, ⟨0, _⟩ => ⟨S524288x94, .f32⟩
  | .hbm, ⟨1, _⟩ => ⟨S12x32, .f32⟩
  | .hbm, ⟨2, _⟩ => ⟨S32, .f32⟩
  | .hbm, ⟨3, _⟩ => ⟨S6x16, .f32⟩
  | .hbm, ⟨4, _⟩ => ⟨S16, .f32⟩
  | .hbm, ⟨5, _⟩ => ⟨S6x16, .f32⟩
  | .hbm, ⟨6, _⟩ => ⟨S16, .f32⟩
  | .hbm, ⟨7, _⟩ => ⟨S2x16, .f32⟩
  | .hbm, ⟨8, _⟩ => ⟨S16, .f32⟩
  | .hbm, ⟨9, _⟩ => ⟨S36x32, .f32⟩
  | .hbm, ⟨10, _⟩ => ⟨S32, .f32⟩
  | .hbm, ⟨11, _⟩ => ⟨S12x16, .f32⟩
  | .hbm, ⟨12, _⟩ => ⟨S16, .f32⟩
  | .hbm, ⟨13, _⟩ => ⟨S20x32, .f32⟩
  | .hbm, ⟨14, _⟩ => ⟨S32, .f32⟩
  | .hbm, ⟨15, _⟩ => ⟨S160, .f32⟩
  | .hbm, ⟨16, _⟩ => ⟨S160, .f32⟩
  | .hbm, ⟨17, _⟩ => ⟨S160x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x32, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x32, .f32⟩
  | .hbm, ⟨26, _⟩ => ⟨S1x16, .f32⟩
  | .hbm, ⟨27, _⟩ => ⟨S1x32, .f32⟩
  | .hbm, ⟨28, _⟩ => ⟨S1x160, .f32⟩
  | .hbm, ⟨29, _⟩ => ⟨S1x160, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S524288x128, .f32⟩
  | .local _ .vmem, ⟨0, _⟩ => ⟨S2048x94, .f32⟩
  | .local _ .vmem, ⟨1, _⟩ => ⟨S2048x94, .f32⟩
  | .local _ .vmem, ⟨2, _⟩ => ⟨S12x32, .f32⟩
  | .local _ .vmem, ⟨3, _⟩ => ⟨S1x32, .f32⟩
  | .local _ .vmem, ⟨4, _⟩ => ⟨S6x16, .f32⟩
  | .local _ .vmem, ⟨5, _⟩ => ⟨S1x16, .f32⟩
  | .local _ .vmem, ⟨6, _⟩ => ⟨S6x16, .f32⟩
  | .local _ .vmem, ⟨7, _⟩ => ⟨S1x16, .f32⟩
  | .local _ .vmem, ⟨8, _⟩ => ⟨S2x16, .f32⟩
  | .local _ .vmem, ⟨9, _⟩ => ⟨S1x16, .f32⟩
  | .local _ .vmem, ⟨10, _⟩ => ⟨S36x32, .f32⟩
  | .local _ .vmem, ⟨11, _⟩ => ⟨S1x32, .f32⟩
  | .local _ .vmem, ⟨12, _⟩ => ⟨S12x16, .f32⟩
  | .local _ .vmem, ⟨13, _⟩ => ⟨S1x16, .f32⟩
  | .local _ .vmem, ⟨14, _⟩ => ⟨S20x32, .f32⟩
  | .local _ .vmem, ⟨15, _⟩ => ⟨S1x32, .f32⟩
  | .local _ .vmem, ⟨16, _⟩ => ⟨S1x160, .f32⟩
  | .local _ .vmem, ⟨17, _⟩ => ⟨S1x160, .f32⟩
  | .local _ .vmem, ⟨18, _⟩ => ⟨S160x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | .local _ .vmem, ⟨24, _⟩ => ⟨S2048x160, .f32⟩
  | _, _ => ⟨S524288x94, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x94 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S36x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x160 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x160 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S160x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  shapeCasts_S32_S1x32 : S32.ShapeCasts S1x32
  shapeCasts_S16_S1x16 : S16.ShapeCasts S1x16
  shapeCasts_S160_S1x160 : S160.ShapeCasts S1x160
  shapeCasts_S128_S1x128 : S128.ShapeCasts S1x128
  inb_S2048x94_S2048x94_0_0 : ∀ a, (![0, 0] : Fin 2 → Nat) a + S2048x94.size a ≤ S2048x94.size a
  h_S2048x94 : 0 < S2048x94.numel
  slices_S2048x94_o0_0_S2048x12 : S2048x94.Slices ![0, 0] S2048x12
  bitsLt_bf16_f32 : FTy.bits .bf16 < FTy.bits .f32
  inb_S12x32_S12x32_0_0 : ∀ a, (![0, 0] : Fin 2 → Nat) a + S12x32.size a ≤ S12x32.size a
  h_S12x32 : 0 < S12x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x160_S2048x32_0_0 : ∀ a, (![0, 0] : Fin 2 → Nat) a + S2048x32.size a ≤ S2048x160.size a
  h_S2048x32 : 0 < S2048x32.numel
  shapeCasts_S2048x32_S2048x32 : S2048x32.ShapeCasts S2048x32
  slices_S2048x94_o0_12_S2048x6 : S2048x94.Slices ![0, 12] S2048x6
  inb_S6x16_S6x16_0_0 : ∀ a, (![0, 0] : Fin 2 → Nat) a + S6x16.size a ≤ S6x16.size a
  h_S6x16 : 0 < S6x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x160_S2048x16_0_32 : ∀ a, (![0, 32] : Fin 2 → Nat) a + S2048x16.size a ≤ S2048x160.size a
  h_S2048x16 : 0 < S2048x16.numel
  shapeCasts_S2048x16_S2048x16 : S2048x16.ShapeCasts S2048x16
  slices_S2048x94_o0_18_S2048x6 : S2048x94.Slices ![0, 18] S2048x6
  inb_S2048x160_S2048x16_0_48 : ∀ a, (![0, 48] : Fin 2 → Nat) a + S2048x16.size a ≤ S2048x160.size a
  slices_S2048x94_o0_24_S2048x2 : S2048x94.Slices ![0, 24] S2048x2
  inb_S2x16_S2x16_0_0 : ∀ a, (![0, 0] : Fin 2 → Nat) a + S2x16.size a ≤ S2x16.size a
  h_S2x16 : 0 < S2x16.numel
  inb_S2048x160_S2048x16_0_64 : ∀ a, (![0, 64] : Fin 2 → Nat) a + S2048x16.size a ≤ S2048x160.size a
  slices_S2048x94_o0_26_S2048x36 : S2048x94.Slices ![0, 26] S2048x36
  inb_S36x32_S36x32_0_0 : ∀ a, (![0, 0] : Fin 2 → Nat) a + S36x32.size a ≤ S36x32.size a
  h_S36x32 : 0 < S36x32.numel
  inb_S2048x160_S2048x32_0_80 : ∀ a, (![0, 80] : Fin 2 → Nat) a + S2048x32.size a ≤ S2048x160.size a
  slices_S2048x94_o0_62_S2048x12 : S2048x94.Slices ![0, 62] S2048x12
  inb_S12x16_S12x16_0_0 : ∀ a, (![0, 0] : Fin 2 → Nat) a + S12x16.size a ≤ S12x16.size a
  h_S12x16 : 0 < S12x16.numel
  inb_S2048x160_S2048x16_0_112 : ∀ a, (![0, 112] : Fin 2 → Nat) a + S2048x16.size a ≤ S2048x160.size a
  slices_S2048x94_o0_74_S2048x20 : S2048x94.Slices ![0, 74] S2048x20
  inb_S20x32_S20x32_0_0 : ∀ a, (![0, 0] : Fin 2 → Nat) a + S20x32.size a ≤ S20x32.size a
  h_S20x32 : 0 < S20x32.numel
  inb_S2048x160_S2048x32_0_128 : ∀ a, (![0, 128] : Fin 2 → Nat) a + S2048x32.size a ≤ S2048x160.size a
  inb_S2048x160_S2048x160_0_0 : ∀ a, (![0, 0] : Fin 2 → Nat) a + S2048x160.size a ≤ S2048x160.size a
  h_S2048x160 : 0 < S2048x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  reduces_S2048x160_S2048 : S2048x160.Reduces [1] S2048
  shapeCasts_S2048_S2048x1 : S2048.ShapeCasts S2048x1
  broadcasts_S2048x1_S2048x160 : S2048x1.Broadcasts S2048x160
  broadcasts_S1x160_S2048x160 : S1x160.Broadcasts S2048x160
  inb_S160x128_S160x128_0_0 : ∀ a, (![0, 0] : Fin 2 → Nat) a + S160x128.size a ≤ S160x128.size a
  h_S160x128 : 0 < S160x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  dot_S2048x12_S12x32_S2048x32_1_0_0_1_n_n_wf : DotDims.WF S2048x12 S12x32 S2048x32 [1] [0] [0] [1] [] []
  dot_S2048x6_S6x16_S2048x16_1_0_0_1_n_n_wf : DotDims.WF S2048x6 S6x16 S2048x16 [1] [0] [0] [1] [] []
  dot_S2048x2_S2x16_S2048x16_1_0_0_1_n_n_wf : DotDims.WF S2048x2 S2x16 S2048x16 [1] [0] [0] [1] [] []
  dot_S2048x36_S36x32_S2048x32_1_0_0_1_n_n_wf : DotDims.WF S2048x36 S36x32 S2048x32 [1] [0] [0] [1] [] []
  dot_S2048x12_S12x16_S2048x16_1_0_0_1_n_n_wf : DotDims.WF S2048x12 S12x16 S2048x16 [1] [0] [0] [1] [] []
  dot_S2048x20_S20x32_S2048x32_1_0_0_1_n_n_wf : DotDims.WF S2048x20 S20x32 S2048x32 [1] [0] [0] [1] [] []
  dot_S2048x160_S160x128_S2048x128_1_0_0_1_n_n_wf : DotDims.WF S2048x160 S160x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x94.size a ≤ S524288x94.size a
  hwx0_0 : ∀ i : grid0.Coords, EltTy.bits .f32 = 32 ∨ (Rect.block (s := S524288x94) S2048x94.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x32.size a ≤ S12x32.size a
  hwx0_1 : ∀ i : grid0.Coords, EltTy.bits .f32 = 32 ∨ (Rect.block (s := S12x32) S12x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x16.size a ≤ S6x16.size a
  hwx0_3 : ∀ i : grid0.Coords, EltTy.bits .f32 = 32 ∨ (Rect.block (s := S6x16) S6x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x16.size a ≤ S6x16.size a
  hwx0_5 : ∀ i : grid0.Coords, EltTy.bits .f32 = 32 ∨ (Rect.block (s := S6x16) S6x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x16.size a ≤ S2x16.size a
  hwx0_7 : ∀ i : grid0.Coords, EltTy.bits .f32 = 32 ∨ (Rect.block (s := S2x16) S2x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S36x32.size a ≤ S36x32.size a
  hwx0_9 : ∀ i : grid0.Coords, EltTy.bits .f32 = 32 ∨ (Rect.block (s := S36x32) S36x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S12x16.size a ≤ S12x16.size a
  hwx0_11 : ∀ i : grid0.Coords, EltTy.bits .f32 = 32 ∨ (Rect.block (s := S12x16) S12x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S20x32.size a ≤ S20x32.size a
  hwx0_13 : ∀ i : grid0.Coords, EltTy.bits .f32 = 32 ∨ (Rect.block (s := S20x32) S20x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x160.size a ≤ S1x160.size a
  hwx0_15 : ∀ i : grid0.Coords, EltTy.bits .f32 = 32 ∨ (Rect.block (s := S1x160) S1x160.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x160.size a ≤ S1x160.size a
  hwx0_16 : ∀ i : grid0.Coords, EltTy.bits .f32 = 32 ∨ (Rect.block (s := S1x160) S1x160.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S160x128.size a ≤ S160x128.size a
  hwx0_17 : ∀ i : grid0.Coords, EltTy.bits .f32 = 32 ∨ (Rect.block (s := S160x128) S160x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x128.size a ≤ S524288x128.size a
  hwx0_21 : ∀ i : grid0.Coords, EltTy.bits .f32 = 32 ∨ (Rect.block (s := S524288x128) S2048x128.size (cc0_transform_21 i) (hinb0_21 i)).WholeWords (EltTy.packing .f32)

variable [Facts₀]

def dot_S2048x12_S12x32_S2048x32_1_0_0_1_n_n : DotDims S2048x12 S12x32 S2048x32 where
  lhsContracting := [1]
  rhsContracting := [0]
  lhsNonContracting := [0]
  rhsNonContracting := [1]
  lhsBatch := []
  rhsBatch := []
  wf := dot_S2048x12_S12x32_S2048x32_1_0_0_1_n_n_wf
def dot_S2048x6_S6x16_S2048x16_1_0_0_1_n_n : DotDims S2048x6 S6x16 S2048x16 where
  lhsContracting := [1]
  rhsContracting := [0]
  lhsNonContracting := [0]
  rhsNonContracting := [1]
  lhsBatch := []
  rhsBatch := []
  wf := dot_S2048x6_S6x16_S2048x16_1_0_0_1_n_n_wf
def dot_S2048x2_S2x16_S2048x16_1_0_0_1_n_n : DotDims S2048x2 S2x16 S2048x16 where
  lhsContracting := [1]
  rhsContracting := [0]
  lhsNonContracting := [0]
  rhsNonContracting := [1]
  lhsBatch := []
  rhsBatch := []
  wf := dot_S2048x2_S2x16_S2048x16_1_0_0_1_n_n_wf
def dot_S2048x36_S36x32_S2048x32_1_0_0_1_n_n : DotDims S2048x36 S36x32 S2048x32 where
  lhsContracting := [1]
  rhsContracting := [0]
  lhsNonContracting := [0]
  rhsNonContracting := [1]
  lhsBatch := []
  rhsBatch := []
  wf := dot_S2048x36_S36x32_S2048x32_1_0_0_1_n_n_wf
def dot_S2048x12_S12x16_S2048x16_1_0_0_1_n_n : DotDims S2048x12 S12x16 S2048x16 where
  lhsContracting := [1]
  rhsContracting := [0]
  lhsNonContracting := [0]
  rhsNonContracting := [1]
  lhsBatch := []
  rhsBatch := []
  wf := dot_S2048x12_S12x16_S2048x16_1_0_0_1_n_n_wf
def dot_S2048x20_S20x32_S2048x32_1_0_0_1_n_n : DotDims S2048x20 S20x32 S2048x32 where
  lhsContracting := [1]
  rhsContracting := [0]
  lhsNonContracting := [0]
  rhsNonContracting := [1]
  lhsBatch := []
  rhsBatch := []
  wf := dot_S2048x20_S20x32_S2048x32_1_0_0_1_n_n_wf
def dot_S2048x160_S160x128_S2048x128_1_0_0_1_n_n : DotDims S2048x160 S160x128 S2048x128 where
  lhsContracting := [1]
  rhsContracting := [0]
  lhsNonContracting := [0]
  rhsNonContracting := [1]
  lhsBatch := []
  rhsBatch := []
  wf := dot_S2048x160_S160x128_S2048x128_1_0_0_1_n_n_wf

abbrev win0_0 : Pipeline.Window sig grid0 :=
  Pipeline.Window.ofSpec (Memref.whole main_arg0) S2048x94.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S36x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S12x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S20x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x160.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x160.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S160x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v10) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v11) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v12) S2048x128.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S524288x94 : Shape := ⟨2, ![524288, 94]⟩
abbrev S12x32 : Shape := ⟨2, ![12, 32]⟩
abbrev S32 : Shape := ⟨1, ![32]⟩
abbrev S6x16 : Shape := ⟨2, ![6, 16]⟩
abbrev S16 : Shape := ⟨1, ![16]⟩
abbrev S2x16 : Shape := ⟨2, ![2, 16]⟩
abbrev S36x32 : Shape := ⟨2, ![36, 32]⟩
abbrev S12x16 : Shape := ⟨2, ![12, 16]⟩
abbrev S20x32 : Shape := ⟨2, ![20, 32]⟩
abbrev S160 : Shape := ⟨1, ![160]⟩
abbrev S160x128 : Shape := ⟨2, ![160, 128]⟩
abbrev S128 : Shape := ⟨1, ![128]⟩
abbrev S524288x12 : Shape := ⟨2, ![524288, 12]⟩
abbrev S524288x32 : Shape := ⟨2, ![524288, 32]⟩
abbrev S1x32 : Shape := ⟨2, ![1, 32]⟩
abbrev S_ : Shape := ⟨0, ![]⟩
abbrev S524288x6 : Shape := ⟨2, ![524288, 6]⟩
abbrev S524288x16 : Shape := ⟨2, ![524288, 16]⟩
abbrev S1x16 : Shape := ⟨2, ![1, 16]⟩
abbrev S524288x2 : Shape := ⟨2, ![524288, 2]⟩
abbrev S524288x36 : Shape := ⟨2, ![524288, 36]⟩
abbrev S524288x20 : Shape := ⟨2, ![524288, 20]⟩
abbrev S524288x160 : Shape := ⟨2, ![524288, 160]⟩
abbrev S524288 : Shape := ⟨1, ![524288]⟩
abbrev S524288x1 : Shape := ⟨2, ![524288, 1]⟩
abbrev S1x160 : Shape := ⟨2, ![1, 160]⟩
abbrev S524288x128 : Shape := ⟨2, ![524288, 128]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S524288x94, .f32⟩
  | 1 => ⟨S12x32, .f32⟩
  | 2 => ⟨S32, .f32⟩
  | 3 => ⟨S6x16, .f32⟩
  | 4 => ⟨S16, .f32⟩
  | 5 => ⟨S6x16, .f32⟩
  | 6 => ⟨S16, .f32⟩
  | 7 => ⟨S2x16, .f32⟩
  | 8 => ⟨S16, .f32⟩
  | 9 => ⟨S36x32, .f32⟩
  | 10 => ⟨S32, .f32⟩
  | 11 => ⟨S12x16, .f32⟩
  | 12 => ⟨S16, .f32⟩
  | 13 => ⟨S20x32, .f32⟩
  | 14 => ⟨S32, .f32⟩
  | 15 => ⟨S160, .f32⟩
  | 16 => ⟨S160, .f32⟩
  | 17 => ⟨S160x128, .f32⟩
  | 18 => ⟨S128, .f32⟩
  | 19 => ⟨S128, .f32⟩
  | 20 => ⟨S128, .f32⟩
  | 21 => ⟨S524288x12, .f32⟩
  | 22 => ⟨S524288x32, .f32⟩
  | 23 => ⟨S1x32, .f32⟩
  | 24 => ⟨S524288x32, .f32⟩
  | 25 => ⟨S524288x32, .f32⟩
  | 26 => ⟨S_, .f32⟩
  | 27 => ⟨S524288x32, .f32⟩
  | 28 => ⟨S524288x32, .f32⟩
  | 29 => ⟨S524288x6, .f32⟩
  | 30 => ⟨S524288x16, .f32⟩
  | 31 => ⟨S1x16, .f32⟩
  | 32 => ⟨S524288x16, .f32⟩
  | 33 => ⟨S524288x16, .f32⟩
  | 34 => ⟨S_, .f32⟩
  | 35 => ⟨S524288x16, .f32⟩
  | 36 => ⟨S524288x16, .f32⟩
  | 37 => ⟨S524288x6, .f32⟩
  | 38 => ⟨S524288x16, .f32⟩
  | 39 => ⟨S1x16, .f32⟩
  | 40 => ⟨S524288x16, .f32⟩
  | 41 => ⟨S524288x16, .f32⟩
  | 42 => ⟨S_, .f32⟩
  | 43 => ⟨S524288x16, .f32⟩
  | 44 => ⟨S524288x16, .f32⟩
  | 45 => ⟨S524288x2, .f32⟩
  | 46 => ⟨S524288x16, .f32⟩
  | 47 => ⟨S1x16, .f32⟩
  | 48 => ⟨S524288x16, .f32⟩
  | 49 => ⟨S524288x16, .f32⟩
  | 50 => ⟨S_, .f32⟩
  | 51 => ⟨S524288x16, .f32⟩
  | 52 => ⟨S524288x16, .f32⟩
  | 53 => ⟨S524288x36, .f32⟩
  | 54 => ⟨S524288x32, .f32⟩
  | 55 => ⟨S1x32, .f32⟩
  | 56 => ⟨S524288x32, .f32⟩
  | 57 => ⟨S524288x32, .f32⟩
  | 58 => ⟨S_, .f32⟩
  | 59 => ⟨S524288x32, .f32⟩
  | 60 => ⟨S524288x32, .f32⟩
  | 61 => ⟨S524288x12, .f32⟩
  | 62 => ⟨S524288x16, .f32⟩
  | 63 => ⟨S1x16, .f32⟩
  | 64 => ⟨S524288x16, .f32⟩
  | 65 => ⟨S524288x16, .f32⟩
  | 66 => ⟨S_, .f32⟩
  | 67 => ⟨S524288x16, .f32⟩
  | 68 => ⟨S524288x16, .f32⟩
  | 69 => ⟨S524288x20, .f32⟩
  | 70 => ⟨S524288x32, .f32⟩
  | 71 => ⟨S1x32, .f32⟩
  | 72 => ⟨S524288x32, .f32⟩
  | 73 => ⟨S524288x32, .f32⟩
  | 74 => ⟨S_, .f32⟩
  | 75 => ⟨S524288x32, .f32⟩
  | 76 => ⟨S524288x32, .f32⟩
  | 77 => ⟨S524288x160, .f32⟩
  | 78 => ⟨S_, .f32⟩
  | 79 => ⟨S524288, .f32⟩
  | 80 => ⟨S524288x1, .f32⟩
  | 81 => ⟨S_, .f32⟩
  | 82 => ⟨S524288x1, .f32⟩
  | 83 => ⟨S524288x1, .f32⟩
  | 84 => ⟨S524288x160, .f32⟩
  | 85 => ⟨S524288x160, .f32⟩
  | 86 => ⟨S524288x160, .f32⟩
  | 87 => ⟨S_, .f32⟩
  | 88 => ⟨S524288, .f32⟩
  | 89 => ⟨S524288x1, .f32⟩
  | 90 => ⟨S_, .f32⟩
  | 91 => ⟨S524288x1, .f32⟩
  | 92 => ⟨S524288x1, .f32⟩
  | 93 => ⟨S524288x160, .f32⟩
  | 94 => ⟨S524288x160, .f32⟩
  | 95 => ⟨S_, .f32⟩
  | 96 => ⟨S524288x1, .f32⟩
  | 97 => ⟨S524288x1, .f32⟩
  | 98 => ⟨S524288x1, .f32⟩
  | 99 => ⟨S524288x160, .f32⟩
  | 100 => ⟨S524288x160, .f32⟩
  | 101 => ⟨S1x160, .f32⟩
  | 102 => ⟨S524288x160, .f32⟩
  | 103 => ⟨S524288x160, .f32⟩
  | 104 => ⟨S1x160, .f32⟩
  | 105 => ⟨S524288x160, .f32⟩
  | 106 => ⟨S524288x160, .f32⟩
  | 107 => ⟨S_, .f32⟩
  | 108 => ⟨S524288x160, .f32⟩
  | 109 => ⟨S524288x160, .f32⟩
  | 110 => ⟨S524288x128, .f32⟩
  | 111 => ⟨S1x128, .f32⟩
  | 112 => ⟨S524288x128, .f32⟩
  | 113 => ⟨S524288x128, .f32⟩
  | 114 => ⟨S_, .f32⟩
  | 115 => ⟨S524288, .f32⟩
  | 116 => ⟨S524288x1, .f32⟩
  | 117 => ⟨S_, .f32⟩
  | 118 => ⟨S524288x1, .f32⟩
  | 119 => ⟨S524288x1, .f32⟩
  | 120 => ⟨S524288x128, .f32⟩
  | 121 => ⟨S524288x128, .f32⟩
  | 122 => ⟨S524288x128, .f32⟩
  | 123 => ⟨S_, .f32⟩
  | 124 => ⟨S524288, .f32⟩
  | 125 => ⟨S524288x1, .f32⟩
  | 126 => ⟨S_, .f32⟩
  | 127 => ⟨S524288x1, .f32⟩
  | _ => ⟨S524288x94, .f32⟩

abbrev hbmTy0_1 (i : Nat) : BufTy := match i % 128 with
  | 0 => ⟨S524288x1, .f32⟩
  | 1 => ⟨S524288x128, .f32⟩
  | 2 => ⟨S524288x128, .f32⟩
  | 3 => ⟨S_, .f32⟩
  | 4 => ⟨S524288x1, .f32⟩
  | 5 => ⟨S524288x1, .f32⟩
  | 6 => ⟨S524288x1, .f32⟩
  | 7 => ⟨S524288x128, .f32⟩
  | 8 => ⟨S524288x128, .f32⟩
  | 9 => ⟨S1x128, .f32⟩
  | 10 => ⟨S524288x128, .f32⟩
  | 11 => ⟨S524288x128, .f32⟩
  | 12 => ⟨S1x128, .f32⟩
  | 13 => ⟨S524288x128, .f32⟩
  | 14 => ⟨S524288x128, .f32⟩
  | 15 => ⟨S_, .f32⟩
  | 16 => ⟨S524288x128, .f32⟩
  | 17 => ⟨S524288x128, .f32⟩
  | _ => ⟨S524288x94, .f32⟩

abbrev hbmTy (i : Nat) : BufTy := match i / 128 with
  | 0 => hbmTy0_0 i
  | 1 => hbmTy0_1 i
  | _ => ⟨S524288x94, .f32⟩

abbrev bufTy : (tb : Table) → Fin (tcTables nBuf tb) → BufTy
  | .hbm, ⟨i, _⟩ => hbmTy i
  | _, _ => ⟨S524288x94, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call3_cst : Ref sig .tc := ⟨.hbm, 50, rfl⟩
abbrev main_call3_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call4_cst : Ref sig .tc := ⟨.hbm, 58, rfl⟩
abbrev main_call4_v0 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call5_cst : Ref sig .tc := ⟨.hbm, 66, rfl⟩
abbrev main_call5_v0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call6_cst : Ref sig .tc := ⟨.hbm, 74, rfl⟩
abbrev main_call6_v0 : Ref sig .tc := ⟨.hbm, 75, rfl⟩
abbrev main_v41 : Ref sig .tc := ⟨.hbm, 76, rfl⟩
abbrev main_v42 : Ref sig .tc := ⟨.hbm, 77, rfl⟩
abbrev main_cst : Ref sig .tc := ⟨.hbm, 78, rfl⟩
abbrev main_v43 : Ref sig .tc := ⟨.hbm, 79, rfl⟩
abbrev main_v44 : Ref sig .tc := ⟨.hbm, 80, rfl⟩
abbrev main_cst_0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_1 : Ref sig .tc := ⟨.hbm, 87, rfl⟩
abbrev main_v50 : Ref sig .tc := ⟨.hbm, 88, rfl⟩
abbrev main_v51 : Ref sig .tc := ⟨.hbm, 89, rfl⟩
abbrev main_cst_2 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_3 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call7_cst : Ref sig .tc := ⟨.hbm, 107, rfl⟩
abbrev main_call7_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_4 : Ref sig .tc := ⟨.hbm, 114, rfl⟩
abbrev main_v72 : Ref sig .tc := ⟨.hbm, 115, rfl⟩
abbrev main_v73 : Ref sig .tc := ⟨.hbm, 116, rfl⟩
abbrev main_cst_5 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_6 : Ref sig .tc := ⟨.hbm, 123, rfl⟩
abbrev main_v79 : Ref sig .tc := ⟨.hbm, 124, rfl⟩
abbrev main_v80 : Ref sig .tc := ⟨.hbm, 125, rfl⟩
abbrev main_cst_7 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_8 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_call8_cst : Ref sig .tc := ⟨.hbm, 143, rfl⟩
abbrev main_call8_v0 : Ref sig .tc := ⟨.hbm, 144, rfl⟩
abbrev main_v96 : Ref sig .tc := ⟨.hbm, 145, rfl⟩

abbrev nD : Nat := 1
abbrev τ : Topo := Topo.v7x

variable {F : FTy → Type} [FloatOps F]

class Facts₀ : Prop where
  slices_S524288x94_S524288x12_0_0 : S524288x94.Slices ![0, 0] S524288x12
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  slices_S524288x94_S524288x6_0_12 : S524288x94.Slices ![0, 12] S524288x6
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  slices_S524288x94_S524288x6_0_18 : S524288x94.Slices ![0, 18] S524288x6
  slices_S524288x94_S524288x2_0_24 : S524288x94.Slices ![0, 24] S524288x2
  slices_S524288x94_S524288x36_0_26 : S524288x94.Slices ![0, 26] S524288x36
  slices_S524288x94_S524288x12_0_62 : S524288x94.Slices ![0, 62] S524288x12
  slices_S524288x94_S524288x20_0_74 : S524288x94.Slices ![0, 74] S524288x20
  concatenates_S524288x32_S524288x16_S524288x16_S524288x16_S524288x32_S524288x16_S524288x32_S524288x160_d1 : Shape.Concatenates [S524288x32, S524288x16, S524288x16, S524288x16, S524288x32, S524288x16, S524288x32] S524288x160 1
  reducesTo_S524288x160_S524288_d1 : S524288x160.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x160_0_1 : S524288x1.BroadcastsInDim S524288x160 (![0, 1] : Fin 2 → Fin S524288x160.rank)
  bcast_S160_S1x160_1 : S160.BroadcastsInDim S1x160 (![1] : Fin 1 → Fin S1x160.rank)
  bcast_S1x160_S524288x160_0_1 : S1x160.BroadcastsInDim S524288x160 (![0, 1] : Fin 2 → Fin S524288x160.rank)
  bcast_S_S524288x160 : S_.BroadcastsInDim S524288x160 (![] : Fin 0 → Fin S524288x160.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  reducesTo_S524288x128_S524288_d1 : S524288x128.ReducesTo [1] S524288
  bcast_S524288x1_S524288x128_0_1 : S524288x1.BroadcastsInDim S524288x128 (![0, 1] : Fin 2 → Fin S524288x128.rank)
  bcast_S_S524288x128 : S_.BroadcastsInDim S524288x128 (![] : Fin 0 → Fin S524288x128.rank)
  dot_S524288x12_S12x32_S524288x32_1_0_0_1_n_n_wf : DotDims.WF S524288x12 S12x32 S524288x32 [1] [0] [0] [1] [] []
  dot_S524288x6_S6x16_S524288x16_1_0_0_1_n_n_wf : DotDims.WF S524288x6 S6x16 S524288x16 [1] [0] [0] [1] [] []
  dot_S524288x2_S2x16_S524288x16_1_0_0_1_n_n_wf : DotDims.WF S524288x2 S2x16 S524288x16 [1] [0] [0] [1] [] []
  dot_S524288x36_S36x32_S524288x32_1_0_0_1_n_n_wf : DotDims.WF S524288x36 S36x32 S524288x32 [1] [0] [0] [1] [] []
  dot_S524288x12_S12x16_S524288x16_1_0_0_1_n_n_wf : DotDims.WF S524288x12 S12x16 S524288x16 [1] [0] [0] [1] [] []
  dot_S524288x20_S20x32_S524288x32_1_0_0_1_n_n_wf : DotDims.WF S524288x20 S20x32 S524288x32 [1] [0] [0] [1] [] []
  dot_S524288x160_S160x128_S524288x128_1_0_0_1_n_n_wf : DotDims.WF S524288x160 S160x128 S524288x128 [1] [0] [0] [1] [] []

variable [Facts₀]

def dot_S524288x12_S12x32_S524288x32_1_0_0_1_n_n : DotDims S524288x12 S12x32 S524288x32 where
  lhsContracting := [1]
  rhsContracting := [0]
  lhsNonContracting := [0]
  rhsNonContracting := [1]
  lhsBatch := []
  rhsBatch := []
  wf := dot_S524288x12_S12x32_S524288x32_1_0_0_1_n_n_wf
def dot_S524288x6_S6x16_S524288x16_1_0_0_1_n_n : DotDims S524288x6 S6x16 S524288x16 where
  lhsContracting := [1]
  rhsContracting := [0]
  lhsNonContracting := [0]
  rhsNonContracting := [1]
  lhsBatch := []
  rhsBatch := []
  wf := dot_S524288x6_S6x16_S524288x16_1_0_0_1_n_n_wf
def dot_S524288x2_S2x16_S524288x16_1_0_0_1_n_n : DotDims S524288x2 S2x16 S524288x16 where
  lhsContracting := [1]
  rhsContracting := [0]
  lhsNonContracting := [0]
  rhsNonContracting := [1]
  lhsBatch := []
  rhsBatch := []
  wf := dot_S524288x2_S2x16_S524288x16_1_0_0_1_n_n_wf
def dot_S524288x36_S36x32_S524288x32_1_0_0_1_n_n : DotDims S524288x36 S36x32 S524288x32 where
  lhsContracting := [1]
  rhsContracting := [0]
  lhsNonContracting := [0]
  rhsNonContracting := [1]
  lhsBatch := []
  rhsBatch := []
  wf := dot_S524288x36_S36x32_S524288x32_1_0_0_1_n_n_wf
def dot_S524288x12_S12x16_S524288x16_1_0_0_1_n_n : DotDims S524288x12 S12x16 S524288x16 where
  lhsContracting := [1]
  rhsContracting := [0]
  lhsNonContracting := [0]
  rhsNonContracting := [1]
  lhsBatch := []
  rhsBatch := []
  wf := dot_S524288x12_S12x16_S524288x16_1_0_0_1_n_n_wf
def dot_S524288x20_S20x32_S524288x32_1_0_0_1_n_n : DotDims S524288x20 S20x32 S524288x32 where
  lhsContracting := [1]
  rhsContracting := [0]
  lhsNonContracting := [0]
  rhsNonContracting := [1]
  lhsBatch := []
  rhsBatch := []
  wf := dot_S524288x20_S20x32_S524288x32_1_0_0_1_n_n_wf
def dot_S524288x160_S160x128_S524288x128_1_0_0_1_n_n : DotDims S524288x160 S160x128 S524288x128 where
  lhsContracting := [1]
  rhsContracting := [0]
  lhsNonContracting := [0]
  rhsNonContracting := [1]
  lhsBatch := []
  rhsBatch := []
  wf := dot_S524288x160_S160x128_S524288x128_1_0_0_1_n_n_wf

class Facts : Prop extends Facts₀ where

variable [Facts]
-- ==== Proof.Spec.lean ====
/-
  The encoder, one row at a time.

  Each of the 524288 rows of the input is encoded independently of the others. A row of 94 entries is cut into
  seven consecutive stretches (12, 6, 6, 2, 36, 12 and 20 entries wide); each stretch goes through its own affine
  map followed by a clamp at zero from below, giving 32, 16, 16, 16, 32, 16 and 32 features, laid side by side as
  160 features. These are normalised (the mean and the mean squared deviation over the 160 features, the
  deviation times the reciprocal square root of the mean squared deviation plus a small constant, a gain and a
  shift per feature), clamped at zero, mapped affinely to 128 features, normalised the same way over the 128,
  and clamped at zero again.

  Everything here is over the extended reals, with the operations as both programs apply them, in the order they
  apply them: no algebraic law is used anywhere, the two programs being the same arithmetic term by term. The
  four float constants (zero, 160, 128 and the small constant) stay the words the programs print.
-/
import Idealize.ShloMosaic.PureOps.Ideal
import Idealize.ShloMosaic.Lib.ValueIdx

noncomputable section

namespace Cert.Encoder

open Idealize.ShloMosaic Idealize.ShloMosaic.ValueIdx

/-- The float zero both programs clamp against. -/
abbrev zeroW : EReal := Ideal.ofBits .f32 0x00000000#32
/-- The small constant under the reciprocal square root. -/
abbrev epsW : EReal := Ideal.ofBits .f32 0x3727C5AC#32
/-- The number of features of the first normalisation, 160, as the float both programs divide by. -/
abbrev n160W : EReal := Ideal.ofBits .f32 0x43200000#32
/-- The number of features of the second normalisation, 128. -/
abbrev n128W : EReal := Ideal.ofBits .f32 0x43000000#32

/-- An affine map of `K` entries to `N` features followed by the clamp at zero: feature `j` is
    `max (∑ k, xs k * w (k, j) + b j) 0`. -/
def dense {K N : ℕ} (xs : Fin K → EReal) (w : (⟨2, ![K, N]⟩ : Shape).Idx → EReal) (b : (⟨1, ![N]⟩ : Shape).Idx → EReal)
    (j : Fin N) : EReal :=
  max ((∑ k : Fin K, xs k * w (ix2 k j)) + b (ix1 j)) zeroW

/-- The stretch of a row that starts at entry `lo` and is `K` entries wide. -/
def stretch (xr : Fin 94 → EReal) (lo K : ℕ) (h : lo + K ≤ 94) (k : Fin K) : EReal :=
  xr ⟨lo + k.val, by have := k.isLt; omega⟩

/-- The weights and shifts of the seven branches, the two normalisations and the map between them. -/
structure Params where
  wMonth : (⟨2, ![12, 32]⟩ : Shape).Idx → EReal
  bMonth : (⟨1, ![32]⟩ : Shape).Idx → EReal
  wArea : (⟨2, ![6, 16]⟩ : Shape).Idx → EReal
  bArea : (⟨1, ![16]⟩ : Shape).Idx → EReal
  wIcls : (⟨2, ![6, 16]⟩ : Shape).Idx → EReal
  bIcls : (⟨1, ![16]⟩ : Shape).Idx → EReal
  wScalar : (⟨2, ![2, 16]⟩ : Shape).Idx → EReal
  bScalar : (⟨1, ![16]⟩ : Shape).Idx → EReal
  wLong : (⟨2, ![36, 32]⟩ : Shape).Idx → EReal
  bLong : (⟨1, ![32]⟩ : Shape).Idx → EReal
  wLat : (⟨2, ![12, 16]⟩ : Shape).Idx → EReal
  bLat : (⟨1, ![16]⟩ : Shape).Idx → EReal
  wHist : (⟨2, ![20, 32]⟩ : Shape).Idx → EReal
  bHist : (⟨1, ![32]⟩ : Shape).Idx → EReal
  gain1 : (⟨1, ![160]⟩ : Shape).Idx → EReal
  shift1 : (⟨1, ![160]⟩ : Shape).Idx → EReal
  wFuse : (⟨2, ![160, 128]⟩ : Shape).Idx → EReal
  bFuse : (⟨1, ![128]⟩ : Shape).Idx → EReal
  gain2 : (⟨1, ![128]⟩ : Shape).Idx → EReal
  shift2 : (⟨1, ![128]⟩ : Shape).Idx → EReal

/-- The 160 features of a row: the seven branches' features side by side, feature `c` coming from the branch whose
    span of columns holds `c` (columns 0–31, 32–47, 48–63, 64–79, 80–111, 112–127, 128–159). -/
def features (P : Params) (xr : Fin 94 → EReal) (c : Fin 160) : EReal :=
  if h0 : c.val < 32 then dense (stretch xr 0 12 (by omega)) P.wMonth P.bMonth ⟨c.val, h0⟩
  else if h1 : c.val < 48 then dense (stretch xr 12 6 (by omega)) P.wArea P.bArea ⟨c.val - 32, by omega⟩
  else if h2 : c.val < 64 then dense (stretch xr 18 6 (by omega)) P.wIcls P.bIcls ⟨c.val - 48, by omega⟩
  else if h3 : c.val < 80 then dense (stretch xr 24 2 (by omega)) P.wScalar P.bScalar ⟨c.val - 64, by omega⟩
  else if h4 : c.val < 112 then dense (stretch xr 26 36 (by omega)) P.wLong P.bLong ⟨c.val - 80, by omega⟩
  else if h5 : c.val < 128 then dense (stretch xr 62 12 (by omega)) P.wLat P.bLat ⟨c.val - 112, by omega⟩
  else dense (stretch xr 74 20 (by omega)) P.wHist P.bHist ⟨c.val - 128, by have := c.isLt; omega⟩

/-- The mean of `n` features, the sum divided by the float `d`. -/
def mean {n : ℕ} (h : Fin n → EReal) (d : EReal) : EReal := Ideal.div (∑ c : Fin n, h c) d

/-- A feature's deviation from the mean. -/
def dev {n : ℕ} (h : Fin n → EReal) (d : EReal) (c : Fin n) : EReal := h c - mean h d

/-- The reciprocal square root of the mean squared deviation plus the small constant. -/
def invStd {n : ℕ} (h : Fin n → EReal) (d : EReal) : EReal :=
  Ideal.rsqrt (Ideal.div (∑ c : Fin n, dev h d c * dev h d c) d + epsW)

/-- A normalisation followed by the clamp at zero. -/
def normRelu {n : ℕ} (h : Fin n → EReal) (d : EReal) (g b : (⟨1, ![n]⟩ : Shape).Idx → EReal) (c : Fin n) : EReal :=
  max (dev h d c * invStd h d * g (ix1 c) + b (ix1 c)) zeroW

/-- The 128 features between the two normalisations. -/
def fused (P : Params) (xr : Fin 94 → EReal) (q : Fin 128) : EReal :=
  (∑ c : Fin 160, normRelu (features P xr) n160W P.gain1 P.shift1 c * P.wFuse (ix2 c q)) + P.bFuse (ix1 q)

/-- A row's code: its 128 output features. -/
def encodeRow (P : Params) (xr : Fin 94 → EReal) (q : Fin 128) : EReal :=
  normRelu (fused P xr) n128W P.gain2 P.shift2 q

/-- The whole result: row `r` of the output is the code of row `r` of the input. -/
def encode (P : Params) (x : (⟨2, ![524288, 94]⟩ : Shape).Idx → EReal) : (⟨2, ![524288, 128]⟩ : Shape).Idx → EReal :=
  fun j => encodeRow P (fun k => x (ix2 (j 0) k)) (j 1)

end Cert.Encoder

end
-- ==== Proof.LibColumn.lean ====
/-
  A vector laid out as a one-column matrix, read at an index.

  Reshaping an array of `a` entries to `a` rows of one entry each moves nothing: row-major, entry `(i, u)` of the
  column sits at position `i * 1 + u`, and the unit coordinate `u` can only be `0`, so that position is `i`, where
  entry `i` of the vector sits. Stated with both indices built from their coordinates, so that the lemma applies
  to a printed reshape by unification.
-/
import Idealize.ShloMosaic.Lib.ValueLayout

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The same at an arbitrary index `j` of the column: it reads the operand at `j`'s row. -/
theorem shapeCast_a_a1_apply' {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) := by
  rw [eq_ix2 j]
  exact shapeCast_a_a1_apply x h (j 0) (j 1)

end Cert.LibColumn

end
-- ==== Proof.LibColumnBroadcast.lean ====
/-
  A one-column matrix spread over many columns, read at an index.

  Broadcasting an array of `a` rows of one entry each to `a` rows of `b` entries repeats each row's entry along
  its row: entry `(p, c)` of the result is the operand's entry `(p, 0)`, whatever the column `c`. Stated with both
  indices built from their coordinates, so that the lemma applies to a printed broadcast by unification.
-/
import Idealize.ShloMosaic.Lib.ValueLayout

noncomputable section

namespace Cert.LibColumnBroadcast

open Idealize.ShloMosaic Idealize.ShloMosaic.ValueIdx

variable {α : Type}

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast

end
-- ==== Proof.LibRowReduce.lean ====
/-
  Reductions along the last axis, read at an index.

  A kernel's `vector.multi_reduction` of an [a, b] vector along its second axis is, at row p, the sum (for add) or the
  fold of max from the accumulator's value (for maximumf) over q of the entry (p, q). The host's `stablehlo.reduce` of an
  [a, b, c, d] array along its last axis is, at (p, q, r), the initial value plus the sum over k of the entry (p, q, r, k),
  or the fold of max from the initial value over them. In each case the source index over a result index with the dropped
  coordinate inserted is the plain coordinate tuple.
-/
import Idealize.ShloMosaic.PureOps.Ideal.Laws
import Idealize.ShloMosaic.Lib.ValueIdx

noncomputable section

namespace Cert.LibRowReduce

open Idealize.ShloMosaic Idealize.ShloMosaic.ValueIdx

/-- In an [a, b] shape reduced along axis 1, the index over row `p` with `q` inserted is (p, q). -/
theorem lift_row {a b : Nat} (h : Shape.Reduces ⟨2, ![a, b]⟩ [1] ⟨1, ![a]⟩) (p : Fin a) (q : Fin b) :
    h.lift (ix1 p) q = ix2 p q := by
  funext c
  apply Fin.ext
  match c with
  | ⟨0, _⟩ => rfl
  | ⟨1, _⟩ => rfl

/-- A row's maximum: the fold of max from the accumulator's value over the row's entries. -/
theorem multiReduction_max_row {a b : Nat} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun q => src (ix2 p q)) := by
  rw [Ideal.multiReduction_maximumf_single]
  show (Finset.univ : Finset (Fin b)).fold max (Ideal.ofBits .f32 acc) (fun q => src (h.lift (ix1 p) q)) = _
  exact congrArg (fun f => (Finset.univ : Finset (Fin b)).fold max (Ideal.ofBits .f32 acc) f)
    (funext fun q => congrArg src (lift_row h p q))

/-- A row's sum. -/
theorem multiReduction_add_row {a b : Nat} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ) (p : Fin a) :
    multiReduction .add [1] ⟨1, ![a]⟩ src acc h hφ hacc (ix1 p) = ∑ q : Fin b, src (ix2 p q) := by
  rw [Ideal.multiReduction_add_single]
  show ∑ q : Fin b, src (h.lift (ix1 p) q) = _
  exact Finset.sum_congr rfl fun q _ => congrArg src (lift_row h p q)

/-- In an [a, b, c, d] shape reduced along its last axis, the index over (p, q, r) with `k` inserted is (p, q, r, k). -/
theorem lift_last4 {a b c d : Nat} (h : Shape.Reduces ⟨4, ![a, b, c, d]⟩ [3] ⟨3, ![a, b, c]⟩) (p : Fin a) (q : Fin b) (r : Fin c)
    (k : Fin d) : h.lift (ix3 p q r) k = ix4 p q r k := by
  funext e
  apply Fin.ext
  match e with
  | ⟨0, _⟩ => rfl
  | ⟨1, _⟩ => rfl
  | ⟨2, _⟩ => rfl
  | ⟨3, _⟩ => rfl

/-- The host's sum along the last axis of an [a, b, c, d] array: the initial value plus the sum of the entries. -/
theorem hostReduceAdd_last4 {a b c d : Nat} (h' : Shape.ReducesTo ⟨4, ![a, b, c, d]⟩ [3] ⟨3, ![a, b, c]⟩)
    (h : Shape.Reduces ⟨4, ![a, b, c, d]⟩ [3] ⟨3, ![a, b, c]⟩) (x : (⟨4, ![a, b, c, d]⟩ : Shape).Idx → EReal) (init : EReal)
    (p : Fin a) (q : Fin b) (r : Fin c) :
    Ideal.hostReduceAdd h' x init (ix3 p q r) = init + ∑ k : Fin d, x (ix4 p q r k) := by
  rw [Ideal.hostReduceAdd_single h' h]
  show init + ∑ k : Fin d, x (h.lift (ix3 p q r) k) = _
  exact congrArg (init + ·) (Finset.sum_congr rfl fun k _ => congrArg x (lift_last4 h p q r k))

/-- The host's maximum along the last axis of an [a, b, c, d] array: the fold of max from the initial value. -/
theorem hostReduce_max_last4 {a b c d : Nat} {u : Shape} (h' : Shape.ReducesTo ⟨4, ![a, b, c, d]⟩ [3] ⟨3, ![a, b, c]⟩)
    (h : Shape.Reduces ⟨4, ![a, b, c, d]⟩ [3] ⟨3, ![a, b, c]⟩) (x : (⟨4, ![a, b, c, d]⟩ : Shape).Idx → Ideal .f32)
    (init : u.Idx → Ideal .f32) (hu : 0 < u.numel) (p : Fin a) (q : Fin b) (r : Fin c) :
    Host.reduce (FloatOps.maximumf (F := Ideal) (φ := .f32)) x init h' hu (ix3 p q r)
      = (Finset.univ : Finset (Fin d)).fold max (init (Shape.Idx.first hu)) (fun k => x (ix4 p q r k)) := by
  rw [Host.reduce_eq_fold_single (FloatOps.maximumf (F := Ideal) (φ := .f32)) x init h' h hu]
  show (Finset.univ : Finset (Fin d)).fold max (init (Shape.Idx.first hu)) (fun k => x (h.lift (ix3 p q r) k)) = _
  exact congrArg (fun f => (Finset.univ : Finset (Fin d)).fold max (init (Shape.Idx.first hu)) f)
    (funext fun k => congrArg x (lift_last4 h p q r k))

end Cert.LibRowReduce

end
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.RowOps.lean ====
/-
  The vector operations of one normalisation and of one branch, read at an entry.

  A block of `R` rows is handled row by row: every operation here either acts entry by entry, or along a row (the
  sum of a row, kept as a one-column matrix and then spread back over the row's columns), or is a matrix product
  with a small matrix on the right. So entry `(p, c)` of each result depends on row `p` of the block alone, and
  is the matching expression of `Cert.Encoder` in that row.
-/
import Idealize.ShloMosaic.Lib.ValueLayout
import Idealize.ShloMosaic.Lib.Pipeline.Value
import Idealize.ShloMosaic.PureOps.Ideal.Laws
import proofs.«112894_j72249939853815_1_alg».proof.Proof.Spec
import proofs.«112894_j72249939853815_1_alg».proof.Proof.LibColumn
import proofs.«112894_j72249939853815_1_alg».proof.Proof.LibColumnBroadcast
import proofs.«112894_j72249939853815_1_alg».proof.Proof.LibRowReduce
import proofs.«112894_j72249939853815_1_alg».proof.Proof.LibMatmulPlain

noncomputable section

namespace Cert.Encoder

open Idealize.ShloMosaic Idealize.ShloMosaic.ValueIdx

variable {R : ℕ}

/-- A row of a block as a function of the column. -/
abbrev rowOf {n : ℕ} (h : (⟨2, ![R, n]⟩ : Shape).Idx → EReal) (p : Fin R) : Fin n → EReal := fun c => h (ix2 p c)

/-- A one-row matrix as the vector it holds. -/
abbrev vecOf {n : ℕ} (g : (⟨2, ![1, n]⟩ : Shape).Idx → EReal) : (⟨1, ![n]⟩ : Shape).Idx → EReal :=
  fun i => g (ix2 (0 : Fin 1) (i 0))

theorem vecOf_ix1 {n : ℕ} (g : (⟨2, ![1, n]⟩ : Shape).Idx → EReal) (c : Fin n) : vecOf g (ix1 c) = g (ix2 (0 : Fin 1) c) := rfl

/-- The sums of the rows, kept as a one-column matrix: entry `(p, 0)` is the sum of row `p`. -/
theorem rowSumColumn_apply {n : ℕ} (h : FVec Ideal ⟨2, ![R, n]⟩ .f32) (hr : Shape.Reduces ⟨2, ![R, n]⟩ [1] ⟨1, ![R]⟩)
    (hφ : FKind.Formats .f32) (hacc : (0x00000000#32 : BitVec 32) = FKind.add.neutral .f32 hφ)
    (hc : (⟨1, ![R]⟩ : Shape).ShapeCasts ⟨2, ![R, 1]⟩) (p : Fin R) (u : Fin 1) :
    shapeCast ⟨2, ![R, 1]⟩ (multiReduction .add [1] ⟨1, ![R]⟩ h 0x00000000#32 hr hφ hacc) hc (ix2 p u)
      = ∑ c : Fin n, h (ix2 p c) :=
  (Cert.LibColumn.shapeCast_a_a1_apply _ hc p u).trans (Cert.LibRowReduce.multiReduction_add_row h _ hr hφ hacc p)

/-- The means of the rows as a one-column matrix. -/
theorem meanColumn_apply {n : ℕ} (h : FVec Ideal ⟨2, ![R, n]⟩ .f32) (s : FVec Ideal ⟨2, ![R, 1]⟩ .f32) (dW : BitVec 32)
    (p : Fin R) (u : Fin 1) (hs : s (ix2 p u) = ∑ c : Fin n, h (ix2 p c)) :
    divf s (broadcast ⟨2, ![R, 1]⟩ (Scalar.ofBits .f32 dW)) (ix2 p u) = mean (rowOf h p) (Ideal.ofBits .f32 dW) := by
  show Ideal.div (s (ix2 p u)) (Ideal.ofBits .f32 dW) = _
  rw [hs]
  rfl

/-- A block less its rows' means: entry `(p, c)` is the deviation of feature `c` of row `p`. -/
theorem devBlock_apply {n : ℕ} (h : FVec Ideal ⟨2, ![R, n]⟩ .f32) (mu : FVec Ideal ⟨2, ![R, 1]⟩ .f32) (d : EReal)
    (hb : (⟨2, ![R, 1]⟩ : Shape).Broadcasts ⟨2, ![R, n]⟩) (p : Fin R) (c : Fin n)
    (hmu : mu (ix2 p (0 : Fin 1)) = mean (rowOf h p) d) :
    subf h (broadcastTo ⟨2, ![R, n]⟩ mu hb) (ix2 p c) = dev (rowOf h p) d c := by
  show h (ix2 p c) - broadcastTo ⟨2, ![R, n]⟩ mu hb (ix2 p c) = _
  rw [Cert.LibColumnBroadcast.broadcastTo_a1_ab_apply mu hb p c, hmu]
  rfl

/-- The reciprocal square roots as a one-column matrix. -/
theorem invStdColumn_apply {n : ℕ} (h : FVec Ideal ⟨2, ![R, n]⟩ .f32) (ss : FVec Ideal ⟨2, ![R, 1]⟩ .f32) (dW : BitVec 32)
    (p : Fin R) (u : Fin 1)
    (hss : ss (ix2 p u) = ∑ c : Fin n, dev (rowOf h p) (Ideal.ofBits .f32 dW) c * dev (rowOf h p) (Ideal.ofBits .f32 dW) c) :
    rsqrt (addf (divf ss (broadcast ⟨2, ![R, 1]⟩ (Scalar.ofBits .f32 dW)))
      (broadcast ⟨2, ![R, 1]⟩ (Scalar.ofBits .f32 0x3727C5AC#32))) (ix2 p u) = invStd (rowOf h p) (Ideal.ofBits .f32 dW) := by
  show Ideal.rsqrt (Ideal.div (ss (ix2 p u)) (Ideal.ofBits .f32 dW) + Ideal.ofBits .f32 0x3727C5AC#32) = _
  rw [hss]
  rfl

/-- The normalised block, clamped at zero. -/
theorem normReluBlock_apply {n : ℕ} (h : FVec Ideal ⟨2, ![R, n]⟩ .f32) (dv : FVec Ideal ⟨2, ![R, n]⟩ .f32)
    (is : FVec Ideal ⟨2, ![R, 1]⟩ .f32) (g b : FVec Ideal ⟨2, ![1, n]⟩ .f32) (d : EReal)
    (hb1 : (⟨2, ![R, 1]⟩ : Shape).Broadcasts ⟨2, ![R, n]⟩) (hbg hbb : (⟨2, ![1, n]⟩ : Shape).Broadcasts ⟨2, ![R, n]⟩)
    (p : Fin R) (c : Fin n) (hdv : dv (ix2 p c) = dev (rowOf h p) d c) (his : is (ix2 p (0 : Fin 1)) = invStd (rowOf h p) d) :
    maximumf (addf (mulf (mulf dv (broadcastTo ⟨2, ![R, n]⟩ is hb1)) (broadcastTo ⟨2, ![R, n]⟩ g hbg))
      (broadcastTo ⟨2, ![R, n]⟩ b hbb)) (broadcast ⟨2, ![R, n]⟩ (Scalar.ofBits .f32 0x00000000#32)) (ix2 p c)
      = normRelu (rowOf h p) d (vecOf g) (vecOf b) c := by
  show max (dv (ix2 p c) * broadcastTo ⟨2, ![R, n]⟩ is hb1 (ix2 p c) * broadcastTo ⟨2, ![R, n]⟩ g hbg (ix2 p c)
    + broadcastTo ⟨2, ![R, n]⟩ b hbb (ix2 p c)) (Ideal.ofBits .f32 0x00000000#32) = _
  rw [Cert.LibColumnBroadcast.broadcastTo_a1_ab_apply is hb1 p c, broadcastTo_1b_ab_apply g hbg p c,
    broadcastTo_1b_ab_apply b hbb p c, hdv, his]
  rfl

/-- An affine map of the rows of a block: a product with a matrix of `K` rows into a zero start, plus a row spread
    over the block's rows. -/
theorem affineBlock_apply {K N : ℕ} {φ₁ φ₂ : FTy} (xs : FVec Ideal ⟨2, ![R, K]⟩ φ₁) (w : FVec Ideal ⟨2, ![K, N]⟩ φ₂)
    (b : FVec Ideal ⟨2, ![1, N]⟩ .f32) (hb : (⟨2, ![1, N]⟩ : Shape).Broadcasts ⟨2, ![R, N]⟩) (p : Fin R) (j : Fin N) :
    addf (matmul (DotDims.plain R K N) none xs w (constant ⟨2, ![R, N]⟩ .f32 0x00000000#32))
      (broadcastTo ⟨2, ![R, N]⟩ b hb) (ix2 p j) = (∑ k : Fin K, xs (ix2 p k) * w (ix2 k j)) + b (ix2 (0 : Fin 1) j) := by
  show FloatOps.matmul (DotDims.plain R K N) none xs w (constant ⟨2, ![R, N]⟩ .f32 0x00000000#32) (ix2 p j)
    + broadcastTo ⟨2, ![R, N]⟩ b hb (ix2 p j) = _
  rw [Cert.LibMatmulPlain.matmul_zero_apply, broadcastTo_1b_ab_apply b hb p j]

/-- One branch on a block: the stretch of each row from column `lo`, `K` wide, through the affine map and the clamp. -/
theorem branchBlock_apply {K N : ℕ} (lo : ℕ) (hlo : lo + K ≤ 94) (x : FVec Ideal ⟨2, ![R, 94]⟩ .f32)
    (w : FVec Ideal ⟨2, ![K, N]⟩ .f32) (b : FVec Ideal ⟨2, ![1, N]⟩ .f32)
    (hs : (⟨2, ![R, 94]⟩ : Shape).Slices ![0, lo] ⟨2, ![R, K]⟩) (hbits : FTy.bf16.bits < FTy.f32.bits)
    (hb : (⟨2, ![1, N]⟩ : Shape).Broadcasts ⟨2, ![R, N]⟩) (p : Fin R) (j : Fin N) :
    maximumf (addf (matmul (DotDims.plain R K N) none (truncf .bf16 (extractStridedSlice ⟨2, ![R, K]⟩ ![0, lo] x hs) hbits)
        (truncf .bf16 w hbits) (constant ⟨2, ![R, N]⟩ .f32 0x00000000#32)) (broadcastTo ⟨2, ![R, N]⟩ b hb))
      (broadcast ⟨2, ![R, N]⟩ (Scalar.ofBits .f32 0x00000000#32)) (ix2 p j)
      = dense (stretch (rowOf x p) lo K hlo) w (vecOf b) j := by
  show max (addf (matmul (DotDims.plain R K N) none (truncf .bf16 (extractStridedSlice ⟨2, ![R, K]⟩ ![0, lo] x hs) hbits)
        (truncf .bf16 w hbits) (constant ⟨2, ![R, N]⟩ .f32 0x00000000#32)) (broadcastTo ⟨2, ![R, N]⟩ b hb) (ix2 p j))
      (Ideal.ofBits .f32 0x00000000#32) = _
  rw [affineBlock_apply]
  unfold dense
  refine congrArg (fun s => max (s + b (ix2 (0 : Fin 1) j)) zeroW) (Finset.sum_congr rfl fun k _ => ?_)
  show extractStridedSlice ⟨2, ![R, K]⟩ ![0, lo] x hs (ix2 p k) * w (ix2 k j) = _
  rw [slice2_axis1_apply lo x hs p k ⟨lo + k.val, by have := k.isLt; omega⟩ rfl]
  rfl

end Cert.Encoder

end
-- ==== Proof.BlockAlgebra.lean ====
/-
  The kernel's arithmetic on one block of 2048 rows, read at an entry.

  Each of the seven branches is a stretch of the block's columns times a small matrix, plus a row spread over the
  block's rows, clamped at zero: at entry (p, j) it is feature j of that branch on row p. The 160 features laid side
  by side are normalised along each row (the row's mean, the deviations from it, the reciprocal square root of the
  mean squared deviation plus the small constant, a gain and a shift per column), clamped at zero, mapped affinely
  to 128 columns, and normalised and clamped the same way: at entry (p, q) the result is feature q of the code of
  row p. The narrowing of the factors before each product changes nothing over the extended reals, and a reshape
  to the same shape moves nothing.
-/
import proofs.«112894_j72249939853815_1_alg».proof.Proof.Gen.KernelIdeal.Skeleton
import proofs.«112894_j72249939853815_1_alg».proof.Proof.RowOps

noncomputable section

namespace Cert.KernelIdeal.BlockAlgebra

open Cert.KernelIdeal Cert.KernelIdeal.Gen Idealize.ShloMosaic Idealize.ShloMosaic.ValueIdx Cert.Encoder

/-- The parameters as the kernel's body finds them: each weight matrix whole, each vector as a one-row matrix. -/
abbrev blockParams (x1 : Vec Ideal S12x32 .f32) (x2 : Vec Ideal S1x32 .f32) (x3 : Vec Ideal S6x16 .f32) (x4 : Vec Ideal S1x16 .f32) (x5 : Vec Ideal S6x16 .f32) (x6 : Vec Ideal S1x16 .f32) (x7 : Vec Ideal S2x16 .f32) (x8 : Vec Ideal S1x16 .f32) (x9 : Vec Ideal S36x32 .f32) (x10 : Vec Ideal S1x32 .f32) (x11 : Vec Ideal S12x16 .f32) (x12 : Vec Ideal S1x16 .f32) (x13 : Vec Ideal S20x32 .f32) (x14 : Vec Ideal S1x32 .f32) (x15 : Vec Ideal S1x160 .f32) (x16 : Vec Ideal S1x160 .f32) (x17 : Vec Ideal S160x128 .f32) (x18 : Vec Ideal S1x128 .f32) (x19 : Vec Ideal S1x128 .f32) (x20 : Vec Ideal S1x128 .f32) : Params :=
  ⟨x1, vecOf x2, x3, vecOf x4, x5, vecOf x6, x7, vecOf x8, x9, vecOf x10, x11, vecOf x12, x13, vecOf x14,
    vecOf x15, vecOf x16, x17, vecOf x18, vecOf x19, vecOf x20⟩

variable {R : ℕ}

/-- The means of the rows of a block, from the block itself: the rows' sums kept as a one-column matrix, divided by
    the float whose word is given. -/
theorem meanOfBlock_apply {n : ℕ} (h : FVec Ideal ⟨2, ![R, n]⟩ .f32) (dW : BitVec 32)
    (hr : Shape.Reduces ⟨2, ![R, n]⟩ [1] ⟨1, ![R]⟩) (hφ : FKind.Formats .f32)
    (hacc : (0x00000000#32 : BitVec 32) = FKind.add.neutral .f32 hφ) (hc : (⟨1, ![R]⟩ : Shape).ShapeCasts ⟨2, ![R, 1]⟩)
    (p : Fin R) (u : Fin 1) :
    divf (shapeCast ⟨2, ![R, 1]⟩ (multiReduction .add [1] ⟨1, ![R]⟩ h 0x00000000#32 hr hφ hacc) hc)
      (broadcast ⟨2, ![R, 1]⟩ (Scalar.ofBits .f32 dW)) (ix2 p u) = mean (rowOf h p) (Ideal.ofBits .f32 dW) :=
  meanColumn_apply h _ dW p u (rowSumColumn_apply h hr hφ hacc hc p u)

/-- The sums of the squared deviations of the rows, as a one-column matrix, given the column of the rows' means. -/
theorem sqDevOfBlock_apply {n : ℕ} (h : FVec Ideal ⟨2, ![R, n]⟩ .f32) (mu : FVec Ideal ⟨2, ![R, 1]⟩ .f32) (d : EReal)
    (hb : (⟨2, ![R, 1]⟩ : Shape).Broadcasts ⟨2, ![R, n]⟩)
    (hr : Shape.Reduces ⟨2, ![R, n]⟩ [1] ⟨1, ![R]⟩) (hφ : FKind.Formats .f32)
    (hacc : (0x00000000#32 : BitVec 32) = FKind.add.neutral .f32 hφ) (hc : (⟨1, ![R]⟩ : Shape).ShapeCasts ⟨2, ![R, 1]⟩)
    (p : Fin R) (u : Fin 1) (hmu : mu (ix2 p (0 : Fin 1)) = mean (rowOf h p) d) :
    shapeCast ⟨2, ![R, 1]⟩ (multiReduction .add [1] ⟨1, ![R]⟩
        (mulf (subf h (broadcastTo ⟨2, ![R, n]⟩ mu hb)) (subf h (broadcastTo ⟨2, ![R, n]⟩ mu hb)))
        0x00000000#32 hr hφ hacc) hc (ix2 p u)
      = ∑ c : Fin n, dev (rowOf h p) d c * dev (rowOf h p) d c := by
  refine (rowSumColumn_apply _ hr hφ hacc hc p u).trans (Finset.sum_congr rfl fun c _ => ?_)
  show subf h (broadcastTo ⟨2, ![R, n]⟩ mu hb) (ix2 p c) * subf h (broadcastTo ⟨2, ![R, n]⟩ mu hb) (ix2 p c) = _
  rw [devBlock_apply h mu d hb p c hmu]

/-- A normalisation of the rows of a block followed by the clamp at zero, given the column of the rows' means and the
    column of the sums of their squared deviations. -/
theorem normOfBlock_apply {n : ℕ} (h : FVec Ideal ⟨2, ![R, n]⟩ .f32) (mu ss : FVec Ideal ⟨2, ![R, 1]⟩ .f32)
    (g b : FVec Ideal ⟨2, ![1, n]⟩ .f32) (dW : BitVec 32)
    (hb1 : (⟨2, ![R, 1]⟩ : Shape).Broadcasts ⟨2, ![R, n]⟩) (hbg hbb : (⟨2, ![1, n]⟩ : Shape).Broadcasts ⟨2, ![R, n]⟩)
    (p : Fin R) (c : Fin n) (hmu : mu (ix2 p (0 : Fin 1)) = mean (rowOf h p) (Ideal.ofBits .f32 dW))
    (hss : ss (ix2 p (0 : Fin 1))
      = ∑ c : Fin n, dev (rowOf h p) (Ideal.ofBits .f32 dW) c * dev (rowOf h p) (Ideal.ofBits .f32 dW) c) :
    maximumf (addf (mulf (mulf (subf h (broadcastTo ⟨2, ![R, n]⟩ mu hb1))
        (broadcastTo ⟨2, ![R, n]⟩ (rsqrt (addf (divf ss (broadcast ⟨2, ![R, 1]⟩ (Scalar.ofBits .f32 dW)))
          (broadcast ⟨2, ![R, 1]⟩ (Scalar.ofBits .f32 0x3727C5AC#32)))) hb1)) (broadcastTo ⟨2, ![R, n]⟩ g hbg))
      (broadcastTo ⟨2, ![R, n]⟩ b hbb)) (broadcast ⟨2, ![R, n]⟩ (Scalar.ofBits .f32 0x00000000#32)) (ix2 p c)
      = normRelu (rowOf h p) (Ideal.ofBits .f32 dW) (vecOf g) (vecOf b) c :=
  normReluBlock_apply h _ _ g b (Ideal.ofBits .f32 dW) hb1 hbg hbb p c
    (devBlock_apply h mu (Ideal.ofBits .f32 dW) hb1 p c hmu) (invStdColumn_apply h ss dW p 0 hss)

/-- A whole normalisation of the rows of a block, clamped at zero, from the block and the column of its rows' sums. -/
theorem layerNormBlock_apply {n : ℕ} (h : FVec Ideal ⟨2, ![R, n]⟩ .f32) (s : FVec Ideal ⟨2, ![R, 1]⟩ .f32)
    (g b : FVec Ideal ⟨2, ![1, n]⟩ .f32) (dW : BitVec 32)
    (hr : Shape.Reduces ⟨2, ![R, n]⟩ [1] ⟨1, ![R]⟩) (hφ : FKind.Formats .f32)
    (hacc : (0x00000000#32 : BitVec 32) = FKind.add.neutral .f32 hφ) (hc : (⟨1, ![R]⟩ : Shape).ShapeCasts ⟨2, ![R, 1]⟩)
    (hb1 : (⟨2, ![R, 1]⟩ : Shape).Broadcasts ⟨2, ![R, n]⟩) (hbg hbb : (⟨2, ![1, n]⟩ : Shape).Broadcasts ⟨2, ![R, n]⟩)
    (p : Fin R) (c : Fin n) (hs : s (ix2 p (0 : Fin 1)) = ∑ c : Fin n, h (ix2 p c)) :
    maximumf (addf (mulf (mulf
        (subf h (broadcastTo ⟨2, ![R, n]⟩ (divf s (broadcast ⟨2, ![R, 1]⟩ (Scalar.ofBits .f32 dW))) hb1))
        (broadcastTo ⟨2, ![R, n]⟩ (rsqrt (addf (divf
          (shapeCast ⟨2, ![R, 1]⟩ (multiReduction .add [1] ⟨1, ![R]⟩
            (mulf (subf h (broadcastTo ⟨2, ![R, n]⟩ (divf s (broadcast ⟨2, ![R, 1]⟩ (Scalar.ofBits .f32 dW))) hb1))
              (subf h (broadcastTo ⟨2, ![R, n]⟩ (divf s (broadcast ⟨2, ![R, 1]⟩ (Scalar.ofBits .f32 dW))) hb1)))
            0x00000000#32 hr hφ hacc) hc)
          (broadcast ⟨2, ![R, 1]⟩ (Scalar.ofBits .f32 dW)))
          (broadcast ⟨2, ![R, 1]⟩ (Scalar.ofBits .f32 0x3727C5AC#32)))) hb1)) (broadcastTo ⟨2, ![R, n]⟩ g hbg))
      (broadcastTo ⟨2, ![R, n]⟩ b hbb)) (broadcast ⟨2, ![R, n]⟩ (Scalar.ofBits .f32 0x00000000#32)) (ix2 p c)
      = normRelu (rowOf h p) (Ideal.ofBits .f32 dW) (vecOf g) (vecOf b) c :=
  have hmu := meanColumn_apply h s dW p (0 : Fin 1) hs
  normOfBlock_apply h _ _ g b dW hb1 hbg hbb p c hmu
    (sqDevOfBlock_apply h _ (Ideal.ofBits .f32 dW) hb1 hr hφ hacc hc p (0 : Fin 1) hmu)

/-- The seven branches' stores, each read at an entry of its own piece. -/
theorem pay2_apply (x0 : Vec Ideal S2048x94 .f32) (w : Vec Ideal S12x32 .f32) (b : Vec Ideal S1x32 .f32) (p : Fin 2048) (j : Fin 32) :
    k0_pay2 (F := Ideal) x0 w b (ix2 p j) = dense (stretch (rowOf x0 p) 0 12 (by omega)) w (vecOf b) j := by
  unfold k0_pay2
  rw [shapeCast_self, shapeCast_self]
  exact branchBlock_apply 0 (by omega) x0 w b _ _ _ p j
theorem pay3_apply (x0 : Vec Ideal S2048x94 .f32) (w : Vec Ideal S6x16 .f32) (b : Vec Ideal S1x16 .f32) (p : Fin 2048) (j : Fin 16) :
    k0_pay3 (F := Ideal) x0 w b (ix2 p j) = dense (stretch (rowOf x0 p) 12 6 (by omega)) w (vecOf b) j := by
  unfold k0_pay3
  rw [shapeCast_self, shapeCast_self]
  exact branchBlock_apply 12 (by omega) x0 w b _ _ _ p j
theorem pay7_apply (x0 : Vec Ideal S2048x94 .f32) (w : Vec Ideal S6x16 .f32) (b : Vec Ideal S1x16 .f32) (p : Fin 2048) (j : Fin 16) :
    k0_pay7 (F := Ideal) (k0_pay4 x0) (k0_pay5 w) (k0_pay6 b) (ix2 p j) = dense (stretch (rowOf x0 p) 18 6 (by omega)) w (vecOf b) j := by
  unfold k0_pay7 k0_pay4 k0_pay5 k0_pay6
  dsimp only
  rw [shapeCast_self, shapeCast_self]
  exact branchBlock_apply 18 (by omega) x0 w b _ _ _ p j
theorem pay8_apply (x0 : Vec Ideal S2048x94 .f32) (w : Vec Ideal S2x16 .f32) (b : Vec Ideal S1x16 .f32) (p : Fin 2048) (j : Fin 16) :
    k0_pay8 (F := Ideal) x0 w b (ix2 p j) = dense (stretch (rowOf x0 p) 24 2 (by omega)) w (vecOf b) j := by
  unfold k0_pay8
  rw [shapeCast_self, shapeCast_self]
  exact branchBlock_apply 24 (by omega) x0 w b _ _ _ p j
theorem pay9_apply (x0 : Vec Ideal S2048x94 .f32) (w : Vec Ideal S36x32 .f32) (b : Vec Ideal S1x32 .f32) (p : Fin 2048) (j : Fin 32) :
    k0_pay9 (F := Ideal) x0 w b (ix2 p j) = dense (stretch (rowOf x0 p) 26 36 (by omega)) w (vecOf b) j := by
  unfold k0_pay9
  rw [shapeCast_self, shapeCast_self]
  exact branchBlock_apply 26 (by omega) x0 w b _ _ _ p j
theorem pay11_apply (x0 : Vec Ideal S2048x94 .f32) (w : Vec Ideal S12x16 .f32) (b : Vec Ideal S1x16 .f32) (p : Fin 2048) (j : Fin 16) :
    k0_pay11 (F := Ideal) (k0_pay10 x0) w b (ix2 p j) = dense (stretch (rowOf x0 p) 62 12 (by omega)) w (vecOf b) j := by
  unfold k0_pay11 k0_pay10
  dsimp only
  rw [shapeCast_self, shapeCast_self]
  exact branchBlock_apply 62 (by omega) x0 w b _ _ _ p j
theorem pay12_apply (x0 : Vec Ideal S2048x94 .f32) (w : Vec Ideal S20x32 .f32) (b : Vec Ideal S1x32 .f32) (p : Fin 2048) (j : Fin 32) :
    k0_pay12 (F := Ideal) x0 w b (ix2 p j) = dense (stretch (rowOf x0 p) 74 20 (by omega)) w (vecOf b) j := by
  unfold k0_pay12
  rw [shapeCast_self, shapeCast_self]
  exact branchBlock_apply 74 (by omega) x0 w b _ _ _ p j

/-- The 128 features between the two normalisations, on a block: the first normalisation of the 160 features read
    back, clamped at zero, through the affine map. -/
theorem pay16_apply (h : Vec Ideal S2048x160 .f32) (g b : Vec Ideal S1x160 .f32) (w : Vec Ideal S160x128 .f32)
    (bf : Vec Ideal S1x128 .f32) (p : Fin 2048) (q : Fin 128) :
    k0_pay16 (F := Ideal) h (k0_pay13 g) (k0_pay14 b) (k0_pay15 h) (Scalar.ofBits .f32 0x43200000#32) w bf (ix2 p q)
      = (∑ c : Fin 160, normRelu (rowOf h p) n160W (vecOf g) (vecOf b) c * w (ix2 c q)) + bf (ix2 (0 : Fin 1) q) := by
  unfold k0_pay16 k0_pay13 k0_pay14 k0_pay15
  dsimp only
  rw [shapeCast_self, shapeCast_self, shapeCast_self]
  refine (affineBlock_apply (R := 2048) (K := 160) (N := 128) _ _ bf _ p q).trans ?_
  refine congrArg (· + bf (ix2 (0 : Fin 1) q)) (Finset.sum_congr rfl fun k _ => ?_)
  refine congrArg (· * w (ix2 k q)) ?_
  exact layerNormBlock_apply h _ g b 0x43200000#32 _ _ _ _ _ _ _ p k (rowSumColumn_apply h _ _ _ _ p 0)

/-- The means of the rows of those 128 features, as a one-column matrix. -/
theorem pay19_apply (v99 : Vec Ideal S2048x160 .f32) (v101 v103 : FVec Ideal S1x160 .f32) (v105 : FVec Ideal S2048x1 .f32)
    (c : Ideal .f32) (v129 : Vec Ideal S160x128 .f32) (v131 : Vec Ideal S1x128 .f32) (p : Fin 2048) (u : Fin 1) :
    k0_pay19 (F := Ideal) v99 v101 v103 v105 c v129 v131 (ix2 p u)
      = mean (rowOf (k0_pay16 (F := Ideal) v99 v101 v103 v105 c v129 v131) p) n128W := by
  unfold k0_pay19
  exact meanOfBlock_apply (k0_pay16 (F := Ideal) v99 v101 v103 v105 c v129 v131) 0x43000000#32 _ _ _ _ p u

/-- The sums of the squared deviations of those rows, as a one-column matrix. -/
theorem pay20_apply (v99 : Vec Ideal S2048x160 .f32) (v101 v103 : FVec Ideal S1x160 .f32) (v105 : FVec Ideal S2048x1 .f32)
    (c : Ideal .f32) (v129 : Vec Ideal S160x128 .f32) (v131 : Vec Ideal S1x128 .f32) (p : Fin 2048) (u : Fin 1) :
    k0_pay20 (F := Ideal) v99 v101 v103 v105 c v129 v131 (ix2 p u)
      = ∑ q : Fin 128, dev (rowOf (k0_pay16 (F := Ideal) v99 v101 v103 v105 c v129 v131) p) n128W q
          * dev (rowOf (k0_pay16 (F := Ideal) v99 v101 v103 v105 c v129 v131) p) n128W q := by
  unfold k0_pay20
  exact sqDevOfBlock_apply (k0_pay16 (F := Ideal) v99 v101 v103 v105 c v129 v131)
    (k0_pay19 (F := Ideal) v99 v101 v103 v105 c v129 v131) n128W _ _ _ _ _ p u
    (pay19_apply v99 v101 v103 v105 c v129 v131 p 0)

/-- The second normalisation and clamp, given the column of means and the column of sums of squared deviations. -/
theorem pay1_apply (a : FVec Ideal S2048x128 .f32) (g b : Vec Ideal S1x128 .f32) (mu ss : FVec Ideal S2048x1 .f32)
    (p : Fin 2048) (q : Fin 128) (hmu : mu (ix2 p (0 : Fin 1)) = mean (rowOf a p) n128W)
    (hss : ss (ix2 p (0 : Fin 1)) = ∑ c : Fin 128, dev (rowOf a p) n128W c * dev (rowOf a p) n128W c) :
    k0_pay1 (F := Ideal) a (k0_pay17 g) (k0_pay18 b) mu ss (Scalar.ofBits .f32 0x43000000#32) (ix2 p q)
      = normRelu (rowOf a p) n128W (vecOf g) (vecOf b) q := by
  unfold k0_pay1 k0_pay17 k0_pay18
  dsimp only
  rw [shapeCast_self, shapeCast_self]
  exact normOfBlock_apply a mu ss g b 0x43000000#32 _ _ _ p q hmu hss

/-- What the body stores in the output block, given that the 160 features it reads back from its scratch are, row by
    row, the features of the input block's rows: entry (p, q) is feature q of the code of row p. -/
theorem stored_apply (x0 : Vec Ideal S2048x94 .f32) (x1 : Vec Ideal S12x32 .f32) (x2 : Vec Ideal S1x32 .f32) (x3 : Vec Ideal S6x16 .f32) (x4 : Vec Ideal S1x16 .f32) (x5 : Vec Ideal S6x16 .f32) (x6 : Vec Ideal S1x16 .f32) (x7 : Vec Ideal S2x16 .f32) (x8 : Vec Ideal S1x16 .f32) (x9 : Vec Ideal S36x32 .f32) (x10 : Vec Ideal S1x32 .f32) (x11 : Vec Ideal S12x16 .f32) (x12 : Vec Ideal S1x16 .f32) (x13 : Vec Ideal S20x32 .f32) (x14 : Vec Ideal S1x32 .f32) (x15 : Vec Ideal S1x160 .f32) (x16 : Vec Ideal S1x160 .f32) (x17 : Vec Ideal S160x128 .f32) (x18 : Vec Ideal S1x128 .f32) (x19 : Vec Ideal S1x128 .f32) (x20 : Vec Ideal S1x128 .f32) (h : Vec Ideal S2048x160 .f32)
    (hh : ∀ (p : Fin 2048) (c : Fin 160), h (ix2 p c) = features (blockParams x1 x2 x3 x4 x5 x6 x7 x8 x9 x10 x11 x12 x13 x14 x15 x16 x17 x18 x19 x20) (rowOf x0 p) c)
    (p : Fin 2048) (q : Fin 128) :
    k0_pay1 (F := Ideal)
      (k0_pay16 h (k0_pay13 x15) (k0_pay14 x16) (k0_pay15 h) (Scalar.ofBits .f32 0x43200000#32) x17 x18)
      (k0_pay17 x19) (k0_pay18 x20)
      (k0_pay19 h (k0_pay13 x15) (k0_pay14 x16) (k0_pay15 h) (Scalar.ofBits .f32 0x43200000#32) x17 x18)
      (k0_pay20 h (k0_pay13 x15) (k0_pay14 x16) (k0_pay15 h) (Scalar.ofBits .f32 0x43200000#32) x17 x18)
      (Scalar.ofBits .f32 0x43000000#32) (ix2 p q)
      = encodeRow (blockParams x1 x2 x3 x4 x5 x6 x7 x8 x9 x10 x11 x12 x13 x14 x15 x16 x17 x18 x19 x20) (rowOf x0 p) q := by
  have hrow : rowOf h p
      = features (blockParams x1 x2 x3 x4 x5 x6 x7 x8 x9 x10 x11 x12 x13 x14 x15 x16 x17 x18 x19 x20) (rowOf x0 p) :=
    funext fun c => hh p c
  have hfused : rowOf (k0_pay16 (F := Ideal) h (k0_pay13 x15) (k0_pay14 x16) (k0_pay15 h)
        (Scalar.ofBits .f32 0x43200000#32) x17 x18) p
      = fused (blockParams x1 x2 x3 x4 x5 x6 x7 x8 x9 x10 x11 x12 x13 x14 x15 x16 x17 x18 x19 x20) (rowOf x0 p) :=
    funext fun c => (pay16_apply h x15 x16 x17 x18 p c).trans
      (congrArg (fun r : Fin 160 → EReal =>
        (∑ k : Fin 160, normRelu r n160W (vecOf x15) (vecOf x16) k * x17 (ix2 k c)) + x18 (ix2 (0 : Fin 1) c)) hrow)
  exact (pay1_apply _ x19 x20 _ _ p q (pay19_apply _ _ _ _ _ _ _ p 0) (pay20_apply _ _ _ _ _ _ _ p 0)).trans
    (congrArg (fun r : Fin 128 → EReal => normRelu r n128W (vecOf x19) (vecOf x20) q) hfused)

end Cert.KernelIdeal.BlockAlgebra

end
-- ==== Proof.SpecPieces.lean ====
/-
  The 160 features, piece by piece.

  Feature `c` of a row comes from the branch whose span of columns holds `c`: a column `lo + j` of the span that
  starts at `lo` reads feature `j` of that branch. Seven statements, one per branch, each deciding the case split of
  `Cert.Encoder.features` from the column's arithmetic.
-/
import proofs.«112894_j72249939853815_1_alg».proof.Proof.Spec

noncomputable section

namespace Cert.Encoder

open Idealize.ShloMosaic Idealize.ShloMosaic.ValueIdx

variable (P : Params) (xr : Fin 94 → EReal)

theorem features_month (c : Fin 160) (j : Fin 32) (h : c.val = 0 + j.val) :
    features P xr c = dense (stretch xr 0 12 (by omega)) P.wMonth P.bMonth j := by
  have hj := j.isLt
  unfold features
  rw [dif_pos (by omega)]
  exact congrArg _ (Fin.ext (by show c.val = j.val; omega))

theorem features_area (c : Fin 160) (j : Fin 16) (h : c.val = 32 + j.val) :
    features P xr c = dense (stretch xr 12 6 (by omega)) P.wArea P.bArea j := by
  have hj := j.isLt
  unfold features
  rw [dif_neg (by omega), dif_pos (by omega)]
  exact congrArg _ (Fin.ext (by show c.val - 32 = j.val; omega))

theorem features_icls (c : Fin 160) (j : Fin 16) (h : c.val = 48 + j.val) :
    features P xr c = dense (stretch xr 18 6 (by omega)) P.wIcls P.bIcls j := by
  have hj := j.isLt
  unfold features
  rw [dif_neg (by omega), dif_neg (by omega), dif_pos (by omega)]
  exact congrArg _ (Fin.ext (by show c.val - 48 = j.val; omega))

theorem features_scalar (c : Fin 160) (j : Fin 16) (h : c.val = 64 + j.val) :
    features P xr c = dense (stretch xr 24 2 (by omega)) P.wScalar P.bScalar j := by
  have hj := j.isLt
  unfold features
  rw [dif_neg (by omega), dif_neg (by omega), dif_neg (by omega), dif_pos (by omega)]
  exact congrArg _ (Fin.ext (by show c.val - 64 = j.val; omega))

theorem features_long (c : Fin 160) (j : Fin 32) (h : c.val = 80 + j.val) :
    features P xr c = dense (stretch xr 26 36 (by omega)) P.wLong P.bLong j := by
  have hj := j.isLt
  unfold features
  rw [dif_neg (by omega), dif_neg (by omega), dif_neg (by omega), dif_neg (by omega), dif_pos (by omega)]
  exact congrArg _ (Fin.ext (by show c.val - 80 = j.val; omega))

theorem features_lat (c : Fin 160) (j : Fin 16) (h : c.val = 112 + j.val) :
    features P xr c = dense (stretch xr 62 12 (by omega)) P.wLat P.bLat j := by
  have hj := j.isLt
  unfold features
  rw [dif_neg (by omega), dif_neg (by omega), dif_neg (by omega), dif_neg (by omega), dif_neg (by omega), dif_pos (by omega)]
  exact congrArg _ (Fin.ext (by show c.val - 112 = j.val; omega))

theorem features_hist (c : Fin 160) (j : Fin 32) (h : c.val = 128 + j.val) :
    features P xr c = dense (stretch xr 74 20 (by omega)) P.wHist P.bHist j := by
  have hj := j.isLt
  unfold features
  rw [dif_neg (by omega), dif_neg (by omega), dif_neg (by omega), dif_neg (by omega), dif_neg (by omega), dif_neg (by omega)]
  exact congrArg _ (Fin.ext (by show c.val - 128 = j.val; omega))

end Cert.Encoder

end
-- ==== Proof.Stored.lean ====
/-
  What the body leaves in the output block at a grid point.

  The body fills its 2048×160 scratch by seven stores, one per branch, side by side along the columns (32, 16, 16,
  16, 32, 16 and 32 columns wide), reads the scratch back whole, and stores the rest of the arithmetic of that
  value in the output block, once, whole. So the output block is one pure term of the input blocks, in which the
  scratch read back stands as what the seven stores left; and what they left is, entry by entry, the 160 features
  of the input block's rows: a column of the span that starts at `lo` holds the branch's feature at that column
  less `lo`. Entry `(p, q)` of the output block is therefore feature `q` of the code of row `p` of the input block.
-/
import proofs.«112894_j72249939853815_1_alg».proof.Proof.Gen.KernelIdeal.Frame
import proofs.«112894_j72249939853815_1_alg».proof.Proof.BlockAlgebra
import proofs.«112894_j72249939853815_1_alg».proof.Proof.SpecPieces
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Stored

open Cert.KernelIdeal Cert.KernelIdeal.Gen Cert.KernelIdeal.BlockAlgebra Cert.Encoder Idealize.ShloMosaic.ValueIdx

theorem hz : (![0, 0] : Fin 2 → Nat) = fun _ => 0 := funext fun a => by fin_cases a <;> rfl

/-- Each branch's span of columns lies inside the scratch. -/
theorem inbHist : ∀ a, (![0, 128] : Fin 2 → Nat) a + S2048x32.size a ≤ S2048x160.size a := fun a => by fin_cases a <;> decide
theorem inbLat : ∀ a, (![0, 112] : Fin 2 → Nat) a + S2048x16.size a ≤ S2048x160.size a := fun a => by fin_cases a <;> decide
theorem inbLong : ∀ a, (![0, 80] : Fin 2 → Nat) a + S2048x32.size a ≤ S2048x160.size a := fun a => by fin_cases a <;> decide
theorem inbScalar : ∀ a, (![0, 64] : Fin 2 → Nat) a + S2048x16.size a ≤ S2048x160.size a := fun a => by fin_cases a <;> decide
theorem inbIcls : ∀ a, (![0, 48] : Fin 2 → Nat) a + S2048x16.size a ≤ S2048x160.size a := fun a => by fin_cases a <;> decide
theorem inbArea : ∀ a, (![0, 32] : Fin 2 → Nat) a + S2048x16.size a ≤ S2048x160.size a := fun a => by fin_cases a <;> decide
theorem inbMonth : ∀ a, (![0, 0] : Fin 2 → Nat) a + S2048x32.size a ≤ S2048x160.size a := fun a => by fin_cases a <;> decide
theorem inbAll : ∀ a, (![0, 0] : Fin 2 → Nat) a + S2048x160.size a ≤ S2048x160.size a := fun a => by fin_cases a <;> decide

section AnyInstance

variable {F : FTy → Type} [FloatOps F]

/-- The seven stores into the scratch, last first: each a span of columns and the branch's value on it. -/
def scratchPieces (x0 : Vec F S2048x94 .f32) (x1 : Vec F S12x32 .f32) (x2 : Vec F S1x32 .f32) (x3 : Vec F S6x16 .f32) (x4 : Vec F S1x16 .f32) (x5 : Vec F S6x16 .f32) (x6 : Vec F S1x16 .f32) (x7 : Vec F S2x16 .f32) (x8 : Vec F S1x16 .f32) (x9 : Vec F S36x32 .f32) (x10 : Vec F S1x32 .f32) (x11 : Vec F S12x16 .f32) (x12 : Vec F S1x16 .f32) (x13 : Vec F S20x32 .f32) (x14 : Vec F S1x32 .f32) : List (View.Piece (Elt F) S2048x160 .f32) :=
  [⟨Rect.unit ![0, 128] S2048x32.size inbHist, k0_pay12 x0 x13 x14⟩,
   ⟨Rect.unit ![0, 112] S2048x16.size inbLat, k0_pay11 (k0_pay10 x0) x11 x12⟩,
   ⟨Rect.unit ![0, 80] S2048x32.size inbLong, k0_pay9 x0 x9 x10⟩,
   ⟨Rect.unit ![0, 64] S2048x16.size inbScalar, k0_pay8 x0 x7 x8⟩,
   ⟨Rect.unit ![0, 48] S2048x16.size inbIcls, k0_pay7 (k0_pay4 x0) (k0_pay5 x5) (k0_pay6 x6)⟩,
   ⟨Rect.unit ![0, 32] S2048x16.size inbArea, k0_pay3 x0 x3 x4⟩,
   ⟨Rect.unit ![0, 0] S2048x32.size inbMonth, k0_pay2 x0 x1 x2⟩]

/-- The scratch read back whole after the seven stores. -/
def readBack (a23 : Memref sig .tc .vmem S2048x160 .f32) (x0 : Vec F S2048x94 .f32) (x1 : Vec F S12x32 .f32) (x2 : Vec F S1x32 .f32) (x3 : Vec F S6x16 .f32) (x4 : Vec F S1x16 .f32) (x5 : Vec F S6x16 .f32) (x6 : Vec F S1x16 .f32) (x7 : Vec F S2x16 .f32) (x8 : Vec F S1x16 .f32) (x9 : Vec F S36x32 .f32) (x10 : Vec F S1x32 .f32) (x11 : Vec F S12x16 .f32) (x12 : Vec F S1x16 .f32) (x13 : Vec F S20x32 .f32) (x14 : Vec F S1x32 .f32) : Vec F S2048x160 .f32 :=
  a23.view.readCov (scratchPieces x0 x1 x2 x3 x4 x5 x6 x7 x8 x9 x10 x11 x12 x13 x14) (Rect.unit ![0, 0] S2048x160.size inbAll).toLoadRect

/-- The value the body stores in the output block, as a term of the scratch read back `h` and the blocks of the two
    normalisations' parameters and of the map between them. -/
def stored (h : Vec F S2048x160 .f32) (x15 : Vec F S1x160 .f32) (x16 : Vec F S1x160 .f32) (x17 : Vec F S160x128 .f32) (x18 : Vec F S1x128 .f32) (x19 : Vec F S1x128 .f32) (x20 : Vec F S1x128 .f32) : Vec F S2048x128 .f32 :=
  k0_pay1
    (k0_pay16 h (k0_pay13 x15) (k0_pay14 x16) (k0_pay15 h) (Scalar.ofBits .f32 0x43200000#32) x17 x18)
    (k0_pay17 x19) (k0_pay18 x20)
    (k0_pay19 h (k0_pay13 x15) (k0_pay14 x16) (k0_pay15 h) (Scalar.ofBits .f32 0x43200000#32) x17 x18)
    (k0_pay20 h (k0_pay13 x15) (k0_pay14 x16) (k0_pay15 h) (Scalar.ofBits .f32 0x43200000#32) x17 x18)
    (Scalar.ofBits .f32 0x43000000#32)

/-- The output block after the body: its one whole store's value, over the scratch read back. -/
theorem out_eq (c : Dev nD) (i : grid0.Coords) (a1 : Memref sig .tc .vmem S2048x94 .f32) (h1 : a1.IsWhole) (a2 : Memref sig .tc .vmem S12x32 .f32) (h2 : a2.IsWhole) (a3 : Memref sig .tc .vmem S1x32 .f32) (h3 : a3.IsWhole) (a4 : Memref sig .tc .vmem S6x16 .f32) (h4 : a4.IsWhole) (a5 : Memref sig .tc .vmem S1x16 .f32) (h5 : a5.IsWhole) (a6 : Memref sig .tc .vmem S6x16 .f32) (h6 : a6.IsWhole) (a7 : Memref sig .tc .vmem S1x16 .f32) (h7 : a7.IsWhole) (a8 : Memref sig .tc .vmem S2x16 .f32) (h8 : a8.IsWhole) (a9 : Memref sig .tc .vmem S1x16 .f32) (h9 : a9.IsWhole) (a10 : Memref sig .tc .vmem S36x32 .f32) (h10 : a10.IsWhole) (a11 : Memref sig .tc .vmem S1x32 .f32) (h11 : a11.IsWhole) (a12 : Memref sig .tc .vmem S12x16 .f32) (h12 : a12.IsWhole) (a13 : Memref sig .tc .vmem S1x16 .f32) (h13 : a13.IsWhole) (a14 : Memref sig .tc .vmem S20x32 .f32) (h14 : a14.IsWhole) (a15 : Memref sig .tc .vmem S1x32 .f32) (h15 : a15.IsWhole) (a16 : Memref sig .tc .vmem S1x160 .f32) (h16 : a16.IsWhole) (a17 : Memref sig .tc .vmem S1x160 .f32) (h17 : a17.IsWhole) (a18 : Memref sig .tc .vmem S160x128 .f32) (h18 : a18.IsWhole) (a19 : Memref sig .tc .vmem S1x128 .f32) (h19 : a19.IsWhole) (a20 : Memref sig .tc .vmem S1x128 .f32) (h20 : a20.IsWhole) (a21 : Memref sig .tc .vmem S1x128 .f32) (h21 : a21.IsWhole) (a22 : Memref sig .tc .vmem S2048x128 .f32) (h22 : a22.IsWhole) (a23 : Memref sig .tc .vmem S2048x160 .f32) (h23 : a23.IsWhole) (x0 : Vec F S2048x94 .f32) (x1 : Vec F S12x32 .f32) (x2 : Vec F S1x32 .f32) (x3 : Vec F S6x16 .f32) (x4 : Vec F S1x16 .f32) (x5 : Vec F S6x16 .f32) (x6 : Vec F S1x16 .f32) (x7 : Vec F S2x16 .f32) (x8 : Vec F S1x16 .f32) (x9 : Vec F S36x32 .f32) (x10 : Vec F S1x32 .f32) (x11 : Vec F S12x16 .f32) (x12 : Vec F S1x16 .f32) (x13 : Vec F S20x32 .f32) (x14 : Vec F S1x32 .f32) (x15 : Vec F S1x160 .f32) (x16 : Vec F S1x160 .f32) (x17 : Vec F S160x128 .f32) (x18 : Vec F S1x128 .f32) (x19 : Vec F S1x128 .f32) (x20 : Vec F S1x128 .f32) :
    out0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 = stored (readBack a23 x0 x1 x2 x3 x4 x5 x6 x7 x8 x9 x10 x11 x12 x13 x14) x15 x16 x17 x18 x19 x20 := by
  unfold out0_A_21
  rw [View.read_writes_eq_canon _ _ _ (cover0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, View.ld_unit_zero (S := S2048x94) hz, View.ld_unit_zero (S := S12x32) hz, View.ld_unit_zero (S := S1x32) hz, View.ld_unit_zero (S := S6x16) hz, View.ld_unit_zero (S := S1x16) hz, View.ld_unit_zero (S := S2x16) hz, View.ld_unit_zero (S := S36x32) hz, View.ld_unit_zero (S := S12x16) hz, View.ld_unit_zero (S := S20x32) hz, View.ld_unit_zero (S := S1x160) hz, View.ld_unit_zero (S := S160x128) hz, View.ld_unit_zero (S := S1x128) hz]
  rfl

end AnyInstance

/-- The 160 features of every row of an input block, as one function of the scratch's index. -/
abbrev featBlock (x0 : Vec Ideal S2048x94 .f32) (x1 : Vec Ideal S12x32 .f32) (x2 : Vec Ideal S1x32 .f32) (x3 : Vec Ideal S6x16 .f32) (x4 : Vec Ideal S1x16 .f32) (x5 : Vec Ideal S6x16 .f32) (x6 : Vec Ideal S1x16 .f32) (x7 : Vec Ideal S2x16 .f32) (x8 : Vec Ideal S1x16 .f32) (x9 : Vec Ideal S36x32 .f32) (x10 : Vec Ideal S1x32 .f32) (x11 : Vec Ideal S12x16 .f32) (x12 : Vec Ideal S1x16 .f32) (x13 : Vec Ideal S20x32 .f32) (x14 : Vec Ideal S1x32 .f32) (x15 : Vec Ideal S1x160 .f32) (x16 : Vec Ideal S1x160 .f32) (x17 : Vec Ideal S160x128 .f32) (x18 : Vec Ideal S1x128 .f32) (x19 : Vec Ideal S1x128 .f32) (x20 : Vec Ideal S1x128 .f32) : S2048x160.Idx → EReal :=
  fun y => features (blockParams x1 x2 x3 x4 x5 x6 x7 x8 x9 x10 x11 x12 x13 x14 x15 x16 x17 x18 x19 x20) (rowOf x0 (y 0)) (y 1)

/-- A store's value on a span of columns agrees with a function `G` of the scratch's index as soon as it does entry
    by entry, the span's column `j` being the scratch's column `lo + j`. -/
theorem piece_spec (lo w : ℕ) (inb : ∀ a, (![0, lo] : Fin 2 → Nat) a + (⟨2, ![2048, w]⟩ : Shape).size a ≤ S2048x160.size a)
    (pay : (⟨2, ![2048, w]⟩ : Shape).Idx → EReal) (G : S2048x160.Idx → EReal)
    (h : ∀ (r : Fin 2048) (j : Fin w) (c : Fin 160), c.val = lo + j.val → pay (ix2 r j) = G (ix2 r c))
    (x : (⟨2, ![2048, w]⟩ : Shape).Idx) :
    pay x = G ((Rect.unit (s := S2048x160) ![0, lo] (⟨2, ![2048, w]⟩ : Shape).size inb).emb x) := by
  obtain ⟨r, j, rfl⟩ : ∃ (r : Fin 2048) (j : Fin w), x = ix2 r j := ⟨x 0, x 1, eq_ix2 x⟩
  have hb : lo + j.val < 160 := by
    have := inb 1
    have hj := j.isLt
    change lo + w ≤ 160 at this
    omega
  have e : (Rect.unit (s := S2048x160) ![0, lo] (⟨2, ![2048, w]⟩ : Shape).size inb).emb (ix2 r j) = ix2 r (⟨lo + j.val, hb⟩ : Fin 160) :=
    funext fun a => Fin.ext (by
      match a with
      | ⟨0, _⟩ => show 0 + 1 * r.val = r.val; omega
      | ⟨1, _⟩ => show lo + 1 * j.val = lo + j.val; omega)
  rw [e]
  exact h r j _ rfl

/-- Each of the seven stores holds, entry by entry, the features of its span of columns. -/
theorem scratchPieces_spec (x0 : Vec Ideal S2048x94 .f32) (x1 : Vec Ideal S12x32 .f32) (x2 : Vec Ideal S1x32 .f32) (x3 : Vec Ideal S6x16 .f32) (x4 : Vec Ideal S1x16 .f32) (x5 : Vec Ideal S6x16 .f32) (x6 : Vec Ideal S1x16 .f32) (x7 : Vec Ideal S2x16 .f32) (x8 : Vec Ideal S1x16 .f32) (x9 : Vec Ideal S36x32 .f32) (x10 : Vec Ideal S1x32 .f32) (x11 : Vec Ideal S12x16 .f32) (x12 : Vec Ideal S1x16 .f32) (x13 : Vec Ideal S20x32 .f32) (x14 : Vec Ideal S1x32 .f32) (x15 : Vec Ideal S1x160 .f32) (x16 : Vec Ideal S1x160 .f32) (x17 : Vec Ideal S160x128 .f32) (x18 : Vec Ideal S1x128 .f32) (x19 : Vec Ideal S1x128 .f32) (x20 : Vec Ideal S1x128 .f32) :
    ∀ pc ∈ scratchPieces x0 x1 x2 x3 x4 x5 x6 x7 x8 x9 x10 x11 x12 x13 x14, ∀ x : pc.1.shape.Idx, pc.2 x = featBlock x0 x1 x2 x3 x4 x5 x6 x7 x8 x9 x10 x11 x12 x13 x14 x15 x16 x17 x18 x19 x20 (pc.1.emb x) := by
  intro pc hpc x
  unfold scratchPieces at hpc
  simp only [List.mem_cons, List.not_mem_nil, or_false] at hpc
  rcases hpc with rfl | rfl | rfl | rfl | rfl | rfl | rfl
  · exact piece_spec 128 32 inbHist (k0_pay12 (F := Ideal) x0 x13 x14) (featBlock x0 x1 x2 x3 x4 x5 x6 x7 x8 x9 x10 x11 x12 x13 x14 x15 x16 x17 x18 x19 x20)
      (fun r j c hc => (pay12_apply x0 x13 x14 r j).trans (features_hist (blockParams x1 x2 x3 x4 x5 x6 x7 x8 x9 x10 x11 x12 x13 x14 x15 x16 x17 x18 x19 x20) (rowOf x0 r) c j hc).symm) x
  · exact piece_spec 112 16 inbLat (k0_pay11 (F := Ideal) (k0_pay10 x0) x11 x12) (featBlock x0 x1 x2 x3 x4 x5 x6 x7 x8 x9 x10 x11 x12 x13 x14 x15 x16 x17 x18 x19 x20)
      (fun r j c hc => (pay11_apply x0 x11 x12 r j).trans (features_lat (blockParams x1 x2 x3 x4 x5 x6 x7 x8 x9 x10 x11 x12 x13 x14 x15 x16 x17 x18 x19 x20) (rowOf x0 r) c j hc).symm) x
  · exact piece_spec 80 32 inbLong (k0_pay9 (F := Ideal) x0 x9 x10) (featBlock x0 x1 x2 x3 x4 x5 x6 x7 x8 x9 x10 x11 x12 x13 x14 x15 x16 x17 x18 x19 x20)
      (fun r j c hc => (pay9_apply x0 x9 x10 r j).trans (features_long (blockParams x1 x2 x3 x4 x5 x6 x7 x8 x9 x10 x11 x12 x13 x14 x15 x16 x17 x18 x19 x20) (rowOf x0 r) c j hc).symm) x
  · exact piece_spec 64 16 inbScalar (k0_pay8 (F := Ideal) x0 x7 x8) (featBlock x0 x1 x2 x3 x4 x5 x6 x7 x8 x9 x10 x11 x12 x13 x14 x15 x16 x17 x18 x19 x20)
      (fun r j c hc => (pay8_apply x0 x7 x8 r j).trans (features_scalar (blockParams x1 x2 x3 x4 x5 x6 x7 x8 x9 x10 x11 x12 x13 x14 x15 x16 x17 x18 x19 x20) (rowOf x0 r) c j hc).symm) x
  · exact piece_spec 48 16 inbIcls (k0_pay7 (F := Ideal) (k0_pay4 x0) (k0_pay5 x5) (k0_pay6 x6)) (featBlock x0 x1 x2 x3 x4 x5 x6 x7 x8 x9 x10 x11 x12 x13 x14 x15 x16 x17 x18 x19 x20)
      (fun r j c hc => (pay7_apply x0 x5 x6 r j).trans (features_icls (blockParams x1 x2 x3 x4 x5 x6 x7 x8 x9 x10 x11 x12 x13 x14 x15 x16 x17 x18 x19 x20) (rowOf x0 r) c j hc).symm) x
  · exact piece_spec 32 16 inbArea (k0_pay3 (F := Ideal) x0 x3 x4) (featBlock x0 x1 x2 x3 x4 x5 x6 x7 x8 x9 x10 x11 x12 x13 x14 x15 x16 x17 x18 x19 x20)
      (fun r j c hc => (pay3_apply x0 x3 x4 r j).trans (features_area (blockParams x1 x2 x3 x4 x5 x6 x7 x8 x9 x10 x11 x12 x13 x14 x15 x16 x17 x18 x19 x20) (rowOf x0 r) c j hc).symm) x
  · exact piece_spec 0 32 inbMonth (k0_pay2 (F := Ideal) x0 x1 x2) (featBlock x0 x1 x2 x3 x4 x5 x6 x7 x8 x9 x10 x11 x12 x13 x14 x15 x16 x17 x18 x19 x20)
      (fun r j c hc => (pay2_apply x0 x1 x2 r j).trans (features_month (blockParams x1 x2 x3 x4 x5 x6 x7 x8 x9 x10 x11 x12 x13 x14 x15 x16 x17 x18 x19 x20) (rowOf x0 r) c j hc).symm) x

/-- The seven spans fill the scratch's 160 columns: every entry is in one of them. -/
theorem scratchPieces_cover (x0 : Vec Ideal S2048x94 .f32) (x1 : Vec Ideal S12x32 .f32) (x2 : Vec Ideal S1x32 .f32) (x3 : Vec Ideal S6x16 .f32) (x4 : Vec Ideal S1x16 .f32) (x5 : Vec Ideal S6x16 .f32) (x6 : Vec Ideal S1x16 .f32) (x7 : Vec Ideal S2x16 .f32) (x8 : Vec Ideal S1x16 .f32) (x9 : Vec Ideal S36x32 .f32) (x10 : Vec Ideal S1x32 .f32) (x11 : Vec Ideal S12x16 .f32) (x12 : Vec Ideal S1x16 .f32) (x13 : Vec Ideal S20x32 .f32) (x14 : Vec Ideal S1x32 .f32) (p : Fin 2048) (c : Fin 160) :
    ∃ pc ∈ scratchPieces x0 x1 x2 x3 x4 x5 x6 x7 x8 x9 x10 x11 x12 x13 x14, ix2 p c ∈ pc.1.set := by
  have hc := c.isLt
  have hp := p.isLt
  have key : ∀ (lo w : ℕ) (inb : ∀ a, (![0, lo] : Fin 2 → Nat) a + (⟨2, ![2048, w]⟩ : Shape).size a ≤ S2048x160.size a),
      lo ≤ c.val → c.val < lo + w → ix2 p c ∈ (Rect.unit (s := S2048x160) ![0, lo] (⟨2, ![2048, w]⟩ : Shape).size inb).set := by
    intro lo w inb h1 h2
    refine Rect.mem_set_unit.mpr fun a => ?_
    match a with
    | ⟨0, _⟩ => exact ⟨Nat.zero_le _, by show p.val < 0 + 2048; omega⟩
    | ⟨1, _⟩ => exact ⟨h1, h2⟩
  unfold scratchPieces
  by_cases h0 : c.val < 32
  · exact ⟨_, (.tail _ (.tail _ (.tail _ (.tail _ (.tail _ (.tail _ (.head _))))))), key 0 32 inbMonth (by omega) (by omega)⟩
  by_cases h1 : c.val < 48
  · exact ⟨_, (.tail _ (.tail _ (.tail _ (.tail _ (.tail _ (.head _)))))), key 32 16 inbArea (by omega) (by omega)⟩
  by_cases h2 : c.val < 64
  · exact ⟨_, (.tail _ (.tail _ (.tail _ (.tail _ (.head _))))), key 48 16 inbIcls (by omega) (by omega)⟩
  by_cases h3 : c.val < 80
  · exact ⟨_, (.tail _ (.tail _ (.tail _ (.head _)))), key 64 16 inbScalar (by omega) (by omega)⟩
  by_cases h4 : c.val < 112
  · exact ⟨_, (.tail _ (.tail _ (.head _))), key 80 32 inbLong (by omega) (by omega)⟩
  by_cases h5 : c.val < 128
  · exact ⟨_, (.tail _ (.head _)), key 112 16 inbLat (by omega) (by omega)⟩
  exact ⟨_, (.head _), key 128 32 inbHist (by omega) (by omega)⟩

/-- What the seven stores left, entry by entry: the 160 features of the input block's rows. -/
theorem readBack_apply (a23 : Memref sig .tc .vmem S2048x160 .f32) (x0 : Vec Ideal S2048x94 .f32) (x1 : Vec Ideal S12x32 .f32) (x2 : Vec Ideal S1x32 .f32) (x3 : Vec Ideal S6x16 .f32) (x4 : Vec Ideal S1x16 .f32) (x5 : Vec Ideal S6x16 .f32) (x6 : Vec Ideal S1x16 .f32) (x7 : Vec Ideal S2x16 .f32) (x8 : Vec Ideal S1x16 .f32) (x9 : Vec Ideal S36x32 .f32) (x10 : Vec Ideal S1x32 .f32) (x11 : Vec Ideal S12x16 .f32) (x12 : Vec Ideal S1x16 .f32) (x13 : Vec Ideal S20x32 .f32) (x14 : Vec Ideal S1x32 .f32) (x15 : Vec Ideal S1x160 .f32) (x16 : Vec Ideal S1x160 .f32) (x17 : Vec Ideal S160x128 .f32) (x18 : Vec Ideal S1x128 .f32) (x19 : Vec Ideal S1x128 .f32) (x20 : Vec Ideal S1x128 .f32) (p : Fin 2048) (c : Fin 160) :
    readBack a23 x0 x1 x2 x3 x4 x5 x6 x7 x8 x9 x10 x11 x12 x13 x14 (ix2 p c) = features (blockParams x1 x2 x3 x4 x5 x6 x7 x8 x9 x10 x11 x12 x13 x14 x15 x16 x17 x18 x19 x20) (rowOf x0 p) c := by
  unfold readBack
  rw [View.readCov_eq_canon']
  have e : (Rect.unit ![0, 0] S2048x160.size inbAll).toLoadRect.idx (ix2 p c) = ix2 p c :=
    funext fun a => Fin.ext (by
      match a with
      | ⟨0, _⟩ => show 0 + 1 * p.val = p.val; omega
      | ⟨1, _⟩ => show 0 + 1 * c.val = c.val; omega)
  show View.canon (scratchPieces x0 x1 x2 x3 x4 x5 x6 x7 x8 x9 x10 x11 x12 x13 x14) ((Rect.unit ![0, 0] S2048x160.size inbAll).toLoadRect.idx (ix2 p c)) = _
  rw [e]
  exact View.canon_apply_of_pieces (featBlock x0 x1 x2 x3 x4 x5 x6 x7 x8 x9 x10 x11 x12 x13 x14 x15 x16 x17 x18 x19 x20) (scratchPieces x0 x1 x2 x3 x4 x5 x6 x7 x8 x9 x10 x11 x12 x13 x14)
    (scratchPieces_spec x0 x1 x2 x3 x4 x5 x6 x7 x8 x9 x10 x11 x12 x13 x14 x15 x16 x17 x18 x19 x20) (ix2 p c) (scratchPieces_cover x0 x1 x2 x3 x4 x5 x6 x7 x8 x9 x10 x11 x12 x13 x14 p c)

end Cert.KernelIdeal.Stored

end
-- ==== Proof.Final.lean ====
/-
  The output array after the run.

  The grid has 256 points; point `t` takes rows `2048 t` to `2048 t + 2047` of the input, every weight matrix whole,
  every vector of shifts and gains whole as a one-row matrix (reshaped so before the launch), and writes back rows
  `2048 t` to `2048 t + 2047` of the output. What it writes back is the code of its input rows (Stored), so it is its
  block of ONE array, the encoder of the whole input; the 256 blocks tile the output's 524288 rows, so after the
  run the output array is that array.
-/
import proofs.«112894_j72249939853815_1_alg».proof.Proof.Gen.KernelIdeal.Value
import proofs.«112894_j72249939853815_1_alg».proof.Proof.Stored
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Stored Cert.KernelIdeal.BlockAlgebra Cert.Encoder
open Idealize.ShloMosaic.ValueIdx

variable (m : (ℓ : Loc nD τ sig) → Buf (Elt Ideal) ℓ) (ρ : Dev nD → PrngReg)

/-- The encoder's parameters as the arguments hold them. -/
abbrev argParams (c : Dev nD) : Params :=
  ⟨m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20)⟩

/-- The input array. -/
abbrev argX (c : Dev nD) : S524288x94.Idx → EReal := m ((c : Thread nD τ).loc main_arg0)

/-! ## The windows' blocks at a point, each at its literal type -/

abbrev blk0 (c : Dev nD) (t : Fin cfg0.N) : Vec Ideal S2048x94 .f32 := iblk m c 0 t
abbrev blk1 (c : Dev nD) (t : Fin cfg0.N) : Vec Ideal S12x32 .f32 := iblk m c 1 t
abbrev blk2 (c : Dev nD) (t : Fin cfg0.N) : Vec Ideal S1x32 .f32 := iblk m c 2 t
abbrev blk3 (c : Dev nD) (t : Fin cfg0.N) : Vec Ideal S6x16 .f32 := iblk m c 3 t
abbrev blk4 (c : Dev nD) (t : Fin cfg0.N) : Vec Ideal S1x16 .f32 := iblk m c 4 t
abbrev blk5 (c : Dev nD) (t : Fin cfg0.N) : Vec Ideal S6x16 .f32 := iblk m c 5 t
abbrev blk6 (c : Dev nD) (t : Fin cfg0.N) : Vec Ideal S1x16 .f32 := iblk m c 6 t
abbrev blk7 (c : Dev nD) (t : Fin cfg0.N) : Vec Ideal S2x16 .f32 := iblk m c 7 t
abbrev blk8 (c : Dev nD) (t : Fin cfg0.N) : Vec Ideal S1x16 .f32 := iblk m c 8 t
abbrev blk9 (c : Dev nD) (t : Fin cfg0.N) : Vec Ideal S36x32 .f32 := iblk m c 9 t
abbrev blk10 (c : Dev nD) (t : Fin cfg0.N) : Vec Ideal S1x32 .f32 := iblk m c 10 t
abbrev blk11 (c : Dev nD) (t : Fin cfg0.N) : Vec Ideal S12x16 .f32 := iblk m c 11 t
abbrev blk12 (c : Dev nD) (t : Fin cfg0.N) : Vec Ideal S1x16 .f32 := iblk m c 12 t
abbrev blk13 (c : Dev nD) (t : Fin cfg0.N) : Vec Ideal S20x32 .f32 := iblk m c 13 t
abbrev blk14 (c : Dev nD) (t : Fin cfg0.N) : Vec Ideal S1x32 .f32 := iblk m c 14 t
abbrev blk15 (c : Dev nD) (t : Fin cfg0.N) : Vec Ideal S1x160 .f32 := iblk m c 15 t
abbrev blk16 (c : Dev nD) (t : Fin cfg0.N) : Vec Ideal S1x160 .f32 := iblk m c 16 t
abbrev blk17 (c : Dev nD) (t : Fin cfg0.N) : Vec Ideal S160x128 .f32 := iblk m c 17 t
abbrev blk18 (c : Dev nD) (t : Fin cfg0.N) : Vec Ideal S1x128 .f32 := iblk m c 18 t
abbrev blk19 (c : Dev nD) (t : Fin cfg0.N) : Vec Ideal S1x128 .f32 := iblk m c 19 t
abbrev blk20 (c : Dev nD) (t : Fin cfg0.N) : Vec Ideal S1x128 .f32 := iblk m c 20 t

/-! ## Where each window's block sits: decided over the 256 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx21 : ∀ t : Fin cfg0.N, win0_21.index t (0 : Fin 2) = t.val ∧ win0_21.index t (1 : Fin 2) = 0 :=
  (by decide +kernel : ∀ t : Fin grid0.N, win0_21.index t (0 : Fin 2) = t.val ∧ win0_21.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem idx18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)
theorem idx19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)
theorem idx20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)

/-! ## The blocks read off the arguments -/

/-- Row `p` of point `t`'s input block is row `2048 t + p` of the input. -/
theorem blk0_apply (c : Dev nD) (t : Fin cfg0.N) (p : Fin 2048) (k : Fin 94) :
    blk0 m c t (ix2 p k) = argX m c (ix2 (⟨t.val * 2048 + p.val, by have ht : t.val < 256 := t.isLt; have hp := p.isLt; show t.val * 2048 + p.val < 524288; omega⟩ : Fin 524288) k) := by
  show V m c main_arg0 (((cfg0.win 0).blk t).view.emb (ix2 p k)) = _
  rw [V_main_arg0]
  refine congrArg (m ((c : Thread nD τ).loc main_arg0)) (funext fun a => Fin.ext ?_)
  obtain ⟨e0, e1⟩ := idx0 t
  match a with
  | ⟨0, _⟩ => show win0_0.index t (0 : Fin 2) * 2048 + 1 * p.val = t.val * 2048 + p.val; rw [e0]; omega
  | ⟨1, _⟩ => show win0_0.index t (1 : Fin 2) * 94 + 1 * k.val = k.val; rw [e1]; omega

theorem blk1_eq (c : Dev nD) (t : Fin cfg0.N) : blk1 m c t = m ((c : Thread nD τ).loc main_arg1) := by
  funext y
  obtain ⟨i, j, rfl⟩ : ∃ (i : Fin 12) (j : Fin 32), y = ix2 i j := ⟨y 0, y 1, eq_ix2 y⟩
  show V m c main_arg1 (((cfg0.win 1).blk t).view.emb (ix2 i j)) = _
  rw [V_main_arg1]
  refine congrArg (m ((c : Thread nD τ).loc main_arg1)) (funext fun a => Fin.ext ?_)
  obtain ⟨e0, e1⟩ := idx1 t
  match a with
  | ⟨0, _⟩ => show win0_1.index t (0 : Fin 2) * 12 + 1 * i.val = i.val; rw [e0]; omega
  | ⟨1, _⟩ => show win0_1.index t (1 : Fin 2) * 32 + 1 * j.val = j.val; rw [e1]; omega

theorem blk3_eq (c : Dev nD) (t : Fin cfg0.N) : blk3 m c t = m ((c : Thread nD τ).loc main_arg3) := by
  funext y
  obtain ⟨i, j, rfl⟩ : ∃ (i : Fin 6) (j : Fin 16), y = ix2 i j := ⟨y 0, y 1, eq_ix2 y⟩
  show V m c main_arg3 (((cfg0.win 3).blk t).view.emb (ix2 i j)) = _
  rw [V_main_arg3]
  refine congrArg (m ((c : Thread nD τ).loc main_arg3)) (funext fun a => Fin.ext ?_)
  obtain ⟨e0, e1⟩ := idx3 t
  match a with
  | ⟨0, _⟩ => show win0_3.index t (0 : Fin 2) * 6 + 1 * i.val = i.val; rw [e0]; omega
  | ⟨1, _⟩ => show win0_3.index t (1 : Fin 2) * 16 + 1 * j.val = j.val; rw [e1]; omega

theorem blk5_eq (c : Dev nD) (t : Fin cfg0.N) : blk5 m c t = m ((c : Thread nD τ).loc main_arg5) := by
  funext y
  obtain ⟨i, j, rfl⟩ : ∃ (i : Fin 6) (j : Fin 16), y = ix2 i j := ⟨y 0, y 1, eq_ix2 y⟩
  show V m c main_arg5 (((cfg0.win 5).blk t).view.emb (ix2 i j)) = _
  rw [V_main_arg5]
  refine congrArg (m ((c : Thread nD τ).loc main_arg5)) (funext fun a => Fin.ext ?_)
  obtain ⟨e0, e1⟩ := idx5 t
  match a with
  | ⟨0, _⟩ => show win0_5.index t (0 : Fin 2) * 6 + 1 * i.val = i.val; rw [e0]; omega
  | ⟨1, _⟩ => show win0_5.index t (1 : Fin 2) * 16 + 1 * j.val = j.val; rw [e1]; omega

theorem blk7_eq (c : Dev nD) (t : Fin cfg0.N) : blk7 m c t = m ((c : Thread nD τ).loc main_arg7) := by
  funext y
  obtain ⟨i, j, rfl⟩ : ∃ (i : Fin 2) (j : Fin 16), y = ix2 i j := ⟨y 0, y 1, eq_ix2 y⟩
  show V m c main_arg7 (((cfg0.win 7).blk t).view.emb (ix2 i j)) = _
  rw [V_main_arg7]
  refine congrArg (m ((c : Thread nD τ).loc main_arg7)) (funext fun a => Fin.ext ?_)
  obtain ⟨e0, e1⟩ := idx7 t
  match a with
  | ⟨0, _⟩ => show win0_7.index t (0 : Fin 2) * 2 + 1 * i.val = i.val; rw [e0]; omega
  | ⟨1, _⟩ => show win0_7.index t (1 : Fin 2) * 16 + 1 * j.val = j.val; rw [e1]; omega

theorem blk9_eq (c : Dev nD) (t : Fin cfg0.N) : blk9 m c t = m ((c : Thread nD τ).loc main_arg9) := by
  funext y
  obtain ⟨i, j, rfl⟩ : ∃ (i : Fin 36) (j : Fin 32), y = ix2 i j := ⟨y 0, y 1, eq_ix2 y⟩
  show V m c main_arg9 (((cfg0.win 9).blk t).view.emb (ix2 i j)) = _
  rw [V_main_arg9]
  refine congrArg (m ((c : Thread nD τ).loc main_arg9)) (funext fun a => Fin.ext ?_)
  obtain ⟨e0, e1⟩ := idx9 t
  match a with
  | ⟨0, _⟩ => show win0_9.index t (0 : Fin 2) * 36 + 1 * i.val = i.val; rw [e0]; omega
  | ⟨1, _⟩ => show win0_9.index t (1 : Fin 2) * 32 + 1 * j.val = j.val; rw [e1]; omega

theorem blk11_eq (c : Dev nD) (t : Fin cfg0.N) : blk11 m c t = m ((c : Thread nD τ).loc main_arg11) := by
  funext y
  obtain ⟨i, j, rfl⟩ : ∃ (i : Fin 12) (j : Fin 16), y = ix2 i j := ⟨y 0, y 1, eq_ix2 y⟩
  show V m c main_arg11 (((cfg0.win 11).blk t).view.emb (ix2 i j)) = _
  rw [V_main_arg11]
  refine congrArg (m ((c : Thread nD τ).loc main_arg11)) (funext fun a => Fin.ext ?_)
  obtain ⟨e0, e1⟩ := idx11 t
  match a with
  | ⟨0, _⟩ => show win0_11.index t (0 : Fin 2) * 12 + 1 * i.val = i.val; rw [e0]; omega
  | ⟨1, _⟩ => show win0_11.index t (1 : Fin 2) * 16 + 1 * j.val = j.val; rw [e1]; omega

theorem blk13_eq (c : Dev nD) (t : Fin cfg0.N) : blk13 m c t = m ((c : Thread nD τ).loc main_arg13) := by
  funext y
  obtain ⟨i, j, rfl⟩ : ∃ (i : Fin 20) (j : Fin 32), y = ix2 i j := ⟨y 0, y 1, eq_ix2 y⟩
  show V m c main_arg13 (((cfg0.win 13).blk t).view.emb (ix2 i j)) = _
  rw [V_main_arg13]
  refine congrArg (m ((c : Thread nD τ).loc main_arg13)) (funext fun a => Fin.ext ?_)
  obtain ⟨e0, e1⟩ := idx13 t
  match a with
  | ⟨0, _⟩ => show win0_13.index t (0 : Fin 2) * 20 + 1 * i.val = i.val; rw [e0]; omega
  | ⟨1, _⟩ => show win0_13.index t (1 : Fin 2) * 32 + 1 * j.val = j.val; rw [e1]; omega

theorem blk17_eq (c : Dev nD) (t : Fin cfg0.N) : blk17 m c t = m ((c : Thread nD τ).loc main_arg17) := by
  funext y
  obtain ⟨i, j, rfl⟩ : ∃ (i : Fin 160) (j : Fin 128), y = ix2 i j := ⟨y 0, y 1, eq_ix2 y⟩
  show V m c main_arg17 (((cfg0.win 17).blk t).view.emb (ix2 i j)) = _
  rw [V_main_arg17]
  refine congrArg (m ((c : Thread nD τ).loc main_arg17)) (funext fun a => Fin.ext ?_)
  obtain ⟨e0, e1⟩ := idx17 t
  match a with
  | ⟨0, _⟩ => show win0_17.index t (0 : Fin 2) * 160 + 1 * i.val = i.val; rw [e0]; omega
  | ⟨1, _⟩ => show win0_17.index t (1 : Fin 2) * 128 + 1 * j.val = j.val; rw [e1]; omega

/-! A vector argument reaches the body as a one-row matrix: the host reshapes it before the launch, and the
    window takes that matrix whole. -/

theorem V_main_v0 (c : Dev nD) : (V m c main_v0 : S1x32.Idx → EReal) = shapeCast S1x32 (m ((c : Thread nD τ).loc main_arg2)) shapeCasts_S32_S1x32 := by
  dsimp only [Gen.V, Gen.hostOps0]; after_results; rfl
theorem blk2_vec (c : Dev nD) (t : Fin cfg0.N) : vecOf (blk2 m c t) = m ((c : Thread nD τ).loc main_arg2) := by
  funext y
  obtain ⟨j, rfl⟩ : ∃ j : Fin 32, y = ix1 j := ⟨y 0, eq_ix1 y⟩
  show V m c main_v0 (((cfg0.win 2).blk t).view.emb (ix2 (0 : Fin 1) j)) = _
  rw [V_main_v0]
  have e : ((cfg0.win 2).blk t).view.emb (ix2 (0 : Fin 1) j) = ix2 (0 : Fin 1) j := by
    funext a; apply Fin.ext
    obtain ⟨e0, e1⟩ := idx2 t
    match a with
    | ⟨0, _⟩ => show win0_2.index t (0 : Fin 2) * 1 + 1 * 0 = 0; rw [e0]
    | ⟨1, _⟩ => show win0_2.index t (1 : Fin 2) * 32 + 1 * j.val = j.val; rw [e1]; omega
  rw [e]
  exact shapeCast_a_1a_apply _ _ (0 : Fin 1) j

theorem V_main_v1 (c : Dev nD) : (V m c main_v1 : S1x16.Idx → EReal) = shapeCast S1x16 (m ((c : Thread nD τ).loc main_arg4)) shapeCasts_S16_S1x16 := by
  dsimp only [Gen.V, Gen.hostOps0]; after_results; rfl
theorem blk4_vec (c : Dev nD) (t : Fin cfg0.N) : vecOf (blk4 m c t) = m ((c : Thread nD τ).loc main_arg4) := by
  funext y
  obtain ⟨j, rfl⟩ : ∃ j : Fin 16, y = ix1 j := ⟨y 0, eq_ix1 y⟩
  show V m c main_v1 (((cfg0.win 4).blk t).view.emb (ix2 (0 : Fin 1) j)) = _
  rw [V_main_v1]
  have e : ((cfg0.win 4).blk t).view.emb (ix2 (0 : Fin 1) j) = ix2 (0 : Fin 1) j := by
    funext a; apply Fin.ext
    obtain ⟨e0, e1⟩ := idx4 t
    match a with
    | ⟨0, _⟩ => show win0_4.index t (0 : Fin 2) * 1 + 1 * 0 = 0; rw [e0]
    | ⟨1, _⟩ => show win0_4.index t (1 : Fin 2) * 16 + 1 * j.val = j.val; rw [e1]; omega
  rw [e]
  exact shapeCast_a_1a_apply _ _ (0 : Fin 1) j

theorem V_main_v2 (c : Dev nD) : (V m c main_v2 : S1x16.Idx → EReal) = shapeCast S1x16 (m ((c : Thread nD τ).loc main_arg6)) shapeCasts_S16_S1x16 := by
  dsimp only [Gen.V, Gen.hostOps0]; after_results; rfl
theorem blk6_vec (c : Dev nD) (t : Fin cfg0.N) : vecOf (blk6 m c t) = m ((c : Thread nD τ).loc main_arg6) := by
  funext y
  obtain ⟨j, rfl⟩ : ∃ j : Fin 16, y = ix1 j := ⟨y 0, eq_ix1 y⟩
  show V m c main_v2 (((cfg0.win 6).blk t).view.emb (ix2 (0 : Fin 1) j)) = _
  rw [V_main_v2]
  have e : ((cfg0.win 6).blk t).view.emb (ix2 (0 : Fin 1) j) = ix2 (0 : Fin 1) j := by
    funext a; apply Fin.ext
    obtain ⟨e0, e1⟩ := idx6 t
    match a with
    | ⟨0, _⟩ => show win0_6.index t (0 : Fin 2) * 1 + 1 * 0 = 0; rw [e0]
    | ⟨1, _⟩ => show win0_6.index t (1 : Fin 2) * 16 + 1 * j.val = j.val; rw [e1]; omega
  rw [e]
  exact shapeCast_a_1a_apply _ _ (0 : Fin 1) j

theorem V_main_v3 (c : Dev nD) : (V m c main_v3 : S1x16.Idx → EReal) = shapeCast S1x16 (m ((c : Thread nD τ).loc main_arg8)) shapeCasts_S16_S1x16 := by
  dsimp only [Gen.V, Gen.hostOps0]; after_results; rfl
theorem blk8_vec (c : Dev nD) (t : Fin cfg0.N) : vecOf (blk8 m c t) = m ((c : Thread nD τ).loc main_arg8) := by
  funext y
  obtain ⟨j, rfl⟩ : ∃ j : Fin 16, y = ix1 j := ⟨y 0, eq_ix1 y⟩
  show V m c main_v3 (((cfg0.win 8).blk t).view.emb (ix2 (0 : Fin 1) j)) = _
  rw [V_main_v3]
  have e : ((cfg0.win 8).blk t).view.emb (ix2 (0 : Fin 1) j) = ix2 (0 : Fin 1) j := by
    funext a; apply Fin.ext
    obtain ⟨e0, e1⟩ := idx8 t
    match a with
    | ⟨0, _⟩ => show win0_8.index t (0 : Fin 2) * 1 + 1 * 0 = 0; rw [e0]
    | ⟨1, _⟩ => show win0_8.index t (1 : Fin 2) * 16 + 1 * j.val = j.val; rw [e1]; omega
  rw [e]
  exact shapeCast_a_1a_apply _ _ (0 : Fin 1) j

theorem V_main_v4 (c : Dev nD) : (V m c main_v4 : S1x32.Idx → EReal) = shapeCast S1x32 (m ((c : Thread nD τ).loc main_arg10)) shapeCasts_S32_S1x32 := by
  dsimp only [Gen.V, Gen.hostOps0]; after_results; rfl
theorem blk10_vec (c : Dev nD) (t : Fin cfg0.N) : vecOf (blk10 m c t) = m ((c : Thread nD τ).loc main_arg10) := by
  funext y
  obtain ⟨j, rfl⟩ : ∃ j : Fin 32, y = ix1 j := ⟨y 0, eq_ix1 y⟩
  show V m c main_v4 (((cfg0.win 10).blk t).view.emb (ix2 (0 : Fin 1) j)) = _
  rw [V_main_v4]
  have e : ((cfg0.win 10).blk t).view.emb (ix2 (0 : Fin 1) j) = ix2 (0 : Fin 1) j := by
    funext a; apply Fin.ext
    obtain ⟨e0, e1⟩ := idx10 t
    match a with
    | ⟨0, _⟩ => show win0_10.index t (0 : Fin 2) * 1 + 1 * 0 = 0; rw [e0]
    | ⟨1, _⟩ => show win0_10.index t (1 : Fin 2) * 32 + 1 * j.val = j.val; rw [e1]; omega
  rw [e]
  exact shapeCast_a_1a_apply _ _ (0 : Fin 1) j

theorem V_main_v5 (c : Dev nD) : (V m c main_v5 : S1x16.Idx → EReal) = shapeCast S1x16 (m ((c : Thread nD τ).loc main_arg12)) shapeCasts_S16_S1x16 := by
  dsimp only [Gen.V, Gen.hostOps0]; after_results; rfl
theorem blk12_vec (c : Dev nD) (t : Fin cfg0.N) : vecOf (blk12 m c t) = m ((c : Thread nD τ).loc main_arg12) := by
  funext y
  obtain ⟨j, rfl⟩ : ∃ j : Fin 16, y = ix1 j := ⟨y 0, eq_ix1 y⟩
  show V m c main_v5 (((cfg0.win 12).blk t).view.emb (ix2 (0 : Fin 1) j)) = _
  rw [V_main_v5]
  have e : ((cfg0.win 12).blk t).view.emb (ix2 (0 : Fin 1) j) = ix2 (0 : Fin 1) j := by
    funext a; apply Fin.ext
    obtain ⟨e0, e1⟩ := idx12 t
    match a with
    | ⟨0, _⟩ => show win0_12.index t (0 : Fin 2) * 1 + 1 * 0 = 0; rw [e0]
    | ⟨1, _⟩ => show win0_12.index t (1 : Fin 2) * 16 + 1 * j.val = j.val; rw [e1]; omega
  rw [e]
  exact shapeCast_a_1a_apply _ _ (0 : Fin 1) j

theorem V_main_v6 (c : Dev nD) : (V m c main_v6 : S1x32.Idx → EReal) = shapeCast S1x32 (m ((c : Thread nD τ).loc main_arg14)) shapeCasts_S32_S1x32 := by
  dsimp only [Gen.V, Gen.hostOps0]; after_results; rfl
theorem blk14_vec (c : Dev nD) (t : Fin cfg0.N) : vecOf (blk14 m c t) = m ((c : Thread nD τ).loc main_arg14) := by
  funext y
  obtain ⟨j, rfl⟩ : ∃ j : Fin 32, y = ix1 j := ⟨y 0, eq_ix1 y⟩
  show V m c main_v6 (((cfg0.win 14).blk t).view.emb (ix2 (0 : Fin 1) j)) = _
  rw [V_main_v6]
  have e : ((cfg0.win 14).blk t).view.emb (ix2 (0 : Fin 1) j) = ix2 (0 : Fin 1) j := by
    funext a; apply Fin.ext
    obtain ⟨e0, e1⟩ := idx14 t
    match a with
    | ⟨0, _⟩ => show win0_14.index t (0 : Fin 2) * 1 + 1 * 0 = 0; rw [e0]
    | ⟨1, _⟩ => show win0_14.index t (1 : Fin 2) * 32 + 1 * j.val = j.val; rw [e1]; omega
  rw [e]
  exact shapeCast_a_1a_apply _ _ (0 : Fin 1) j

theorem V_main_v7 (c : Dev nD) : (V m c main_v7 : S1x160.Idx → EReal) = shapeCast S1x160 (m ((c : Thread nD τ).loc main_arg15)) shapeCasts_S160_S1x160 := by
  dsimp only [Gen.V, Gen.hostOps0]; after_results; rfl
theorem blk15_vec (c : Dev nD) (t : Fin cfg0.N) : vecOf (blk15 m c t) = m ((c : Thread nD τ).loc main_arg15) := by
  funext y
  obtain ⟨j, rfl⟩ : ∃ j : Fin 160, y = ix1 j := ⟨y 0, eq_ix1 y⟩
  show V m c main_v7 (((cfg0.win 15).blk t).view.emb (ix2 (0 : Fin 1) j)) = _
  rw [V_main_v7]
  have e : ((cfg0.win 15).blk t).view.emb (ix2 (0 : Fin 1) j) = ix2 (0 : Fin 1) j := by
    funext a; apply Fin.ext
    obtain ⟨e0, e1⟩ := idx15 t
    match a with
    | ⟨0, _⟩ => show win0_15.index t (0 : Fin 2) * 1 + 1 * 0 = 0; rw [e0]
    | ⟨1, _⟩ => show win0_15.index t (1 : Fin 2) * 160 + 1 * j.val = j.val; rw [e1]; omega
  rw [e]
  exact shapeCast_a_1a_apply _ _ (0 : Fin 1) j

theorem V_main_v8 (c : Dev nD) : (V m c main_v8 : S1x160.Idx → EReal) = shapeCast S1x160 (m ((c : Thread nD τ).loc main_arg16)) shapeCasts_S160_S1x160 := by
  dsimp only [Gen.V, Gen.hostOps0]; after_results; rfl
theorem blk16_vec (c : Dev nD) (t : Fin cfg0.N) : vecOf (blk16 m c t) = m ((c : Thread nD τ).loc main_arg16) := by
  funext y
  obtain ⟨j, rfl⟩ : ∃ j : Fin 160, y = ix1 j := ⟨y 0, eq_ix1 y⟩
  show V m c main_v8 (((cfg0.win 16).blk t).view.emb (ix2 (0 : Fin 1) j)) = _
  rw [V_main_v8]
  have e : ((cfg0.win 16).blk t).view.emb (ix2 (0 : Fin 1) j) = ix2 (0 : Fin 1) j := by
    funext a; apply Fin.ext
    obtain ⟨e0, e1⟩ := idx16 t
    match a with
    | ⟨0, _⟩ => show win0_16.index t (0 : Fin 2) * 1 + 1 * 0 = 0; rw [e0]
    | ⟨1, _⟩ => show win0_16.index t (1 : Fin 2) * 160 + 1 * j.val = j.val; rw [e1]; omega
  rw [e]
  exact shapeCast_a_1a_apply _ _ (0 : Fin 1) j

theorem V_main_v9 (c : Dev nD) : (V m c main_v9 : S1x128.Idx → EReal) = shapeCast S1x128 (m ((c : Thread nD τ).loc main_arg18)) shapeCasts_S128_S1x128 := by
  dsimp only [Gen.V, Gen.hostOps0]; after_results; rfl
theorem blk18_vec (c : Dev nD) (t : Fin cfg0.N) : vecOf (blk18 m c t) = m ((c : Thread nD τ).loc main_arg18) := by
  funext y
  obtain ⟨j, rfl⟩ : ∃ j : Fin 128, y = ix1 j := ⟨y 0, eq_ix1 y⟩
  show V m c main_v9 (((cfg0.win 18).blk t).view.emb (ix2 (0 : Fin 1) j)) = _
  rw [V_main_v9]
  have e : ((cfg0.win 18).blk t).view.emb (ix2 (0 : Fin 1) j) = ix2 (0 : Fin 1) j := by
    funext a; apply Fin.ext
    obtain ⟨e0, e1⟩ := idx18 t
    match a with
    | ⟨0, _⟩ => show win0_18.index t (0 : Fin 2) * 1 + 1 * 0 = 0; rw [e0]
    | ⟨1, _⟩ => show win0_18.index t (1 : Fin 2) * 128 + 1 * j.val = j.val; rw [e1]; omega
  rw [e]
  exact shapeCast_a_1a_apply _ _ (0 : Fin 1) j

theorem V_main_v10 (c : Dev nD) : (V m c main_v10 : S1x128.Idx → EReal) = shapeCast S1x128 (m ((c : Thread nD τ).loc main_arg19)) shapeCasts_S128_S1x128 := by
  dsimp only [Gen.V, Gen.hostOps0]; after_results; rfl
theorem blk19_vec (c : Dev nD) (t : Fin cfg0.N) : vecOf (blk19 m c t) = m ((c : Thread nD τ).loc main_arg19) := by
  funext y
  obtain ⟨j, rfl⟩ : ∃ j : Fin 128, y = ix1 j := ⟨y 0, eq_ix1 y⟩
  show V m c main_v10 (((cfg0.win 19).blk t).view.emb (ix2 (0 : Fin 1) j)) = _
  rw [V_main_v10]
  have e : ((cfg0.win 19).blk t).view.emb (ix2 (0 : Fin 1) j) = ix2 (0 : Fin 1) j := by
    funext a; apply Fin.ext
    obtain ⟨e0, e1⟩ := idx19 t
    match a with
    | ⟨0, _⟩ => show win0_19.index t (0 : Fin 2) * 1 + 1 * 0 = 0; rw [e0]
    | ⟨1, _⟩ => show win0_19.index t (1 : Fin 2) * 128 + 1 * j.val = j.val; rw [e1]; omega
  rw [e]
  exact shapeCast_a_1a_apply _ _ (0 : Fin 1) j

theorem V_main_v11 (c : Dev nD) : (V m c main_v11 : S1x128.Idx → EReal) = shapeCast S1x128 (m ((c : Thread nD τ).loc main_arg20)) shapeCasts_S128_S1x128 := by
  dsimp only [Gen.V, Gen.hostOps0]; after_results; rfl
theorem blk20_vec (c : Dev nD) (t : Fin cfg0.N) : vecOf (blk20 m c t) = m ((c : Thread nD τ).loc main_arg20) := by
  funext y
  obtain ⟨j, rfl⟩ : ∃ j : Fin 128, y = ix1 j := ⟨y 0, eq_ix1 y⟩
  show V m c main_v11 (((cfg0.win 20).blk t).view.emb (ix2 (0 : Fin 1) j)) = _
  rw [V_main_v11]
  have e : ((cfg0.win 20).blk t).view.emb (ix2 (0 : Fin 1) j) = ix2 (0 : Fin 1) j := by
    funext a; apply Fin.ext
    obtain ⟨e0, e1⟩ := idx20 t
    match a with
    | ⟨0, _⟩ => show win0_20.index t (0 : Fin 2) * 1 + 1 * 0 = 0; rw [e0]
    | ⟨1, _⟩ => show win0_20.index t (1 : Fin 2) * 128 + 1 * j.val = j.val; rw [e1]; omega
  rw [e]
  exact shapeCast_a_1a_apply _ _ (0 : Fin 1) j

/-- So the parameters the body finds in its blocks are the arguments. -/
theorem blockParams_eq (c : Dev nD) (t : Fin cfg0.N) :
    blockParams (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) = argParams m c := by
  show (⟨blk1 m c t, vecOf (blk2 m c t), blk3 m c t, vecOf (blk4 m c t), blk5 m c t, vecOf (blk6 m c t), blk7 m c t, vecOf (blk8 m c t),
    blk9 m c t, vecOf (blk10 m c t), blk11 m c t, vecOf (blk12 m c t), blk13 m c t, vecOf (blk14 m c t), vecOf (blk15 m c t),
    vecOf (blk16 m c t), blk17 m c t, vecOf (blk18 m c t), vecOf (blk19 m c t), vecOf (blk20 m c t)⟩ : Params) = _
  rw [blk1_eq, blk2_vec, blk3_eq, blk4_vec, blk5_eq, blk6_vec, blk7_eq, blk8_vec, blk9_eq, blk10_vec, blk11_eq, blk12_vec,
    blk13_eq, blk14_vec, blk15_vec, blk16_vec, blk17_eq, blk18_vec, blk19_vec, blk20_vec]

/-! ## What a point writes back, and the array the write-backs leave -/

/-- WHAT POINT `t` WRITES BACK is its block of the encoder of the whole input. -/
theorem flushed_eq (c : Dev nD) (t : Fin cfg0.N) :
    (dats m 0 c).flushed 21 t = ((cfg0.win 21).blk t).view.read (Elt Ideal) (encode (argParams m c) (argX m c)) := by
  rw [Value.flushed21_A]
  funext y
  obtain ⟨p, q, rfl⟩ : ∃ (p : Fin 2048) (q : Fin 128), y = ix2 p q := ⟨y 0, y 1, eq_ix2 y⟩
  refine (congrFun (out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _)
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t)) (ix2 p q)).trans ?_
  refine (stored_apply (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t)
    (readBack scM0_0 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t))
    (fun p' c' => readBack_apply scM0_0 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) p' c') p q).trans ?_
  rw [blockParams_eq]
  show encodeRow (argParams m c) (rowOf (blk0 m c t) p) q
    = encodeRow (argParams m c) (fun k => argX m c (ix2 ((((cfg0.win 21).blk t).view.emb (ix2 p q)) 0) k)) ((((cfg0.win 21).blk t).view.emb (ix2 p q)) 1)
  obtain ⟨e0, e1⟩ := idx21 t
  have hrow : (((cfg0.win 21).blk t).view.emb (ix2 p q)) 0 = (⟨t.val * 2048 + p.val, by have ht : t.val < 256 := t.isLt; have hp := p.isLt; show t.val * 2048 + p.val < 524288; omega⟩ : Fin 524288) :=
    Fin.ext (by show win0_21.index t (0 : Fin 2) * 2048 + 1 * p.val = t.val * 2048 + p.val; rw [e0]; omega)
  have hcol : (((cfg0.win 21).blk t).view.emb (ix2 p q)) 1 = q :=
    Fin.ext (by show win0_21.index t (1 : Fin 2) * 128 + 1 * q.val = q.val; rw [e1]; omega)
  rw [hrow, hcol]
  exact congrArg (fun xr => encodeRow (argParams m c) xr q) (funext fun k => blk0_apply m c t p k)

/-- An index of the output is in point `t`'s block iff its row is one of the point's 2048 rows. -/
theorem mem_blk (t : Fin cfg0.N) (i : S524288x128.Idx) :
    i ∈ ((cfg0.win 21).blk t).view.set ↔ ∀ a : Fin 2, win0_21.index t a * S2048x128.size a ≤ (i a).val ∧ (i a).val < win0_21.index t a * S2048x128.size a + S2048x128.size a := by
  show i ∈ ((View.whole main_v12).slice (win0_21.rect t)).set ↔ _
  rw [View.set_slice_whole, Rect.mem_set_unit]
  exact Iff.rfl

/-- Every index of the output is in the block of the point its row falls in. -/
theorem covered (i : S524288x128.Idx) : ∃ t : Fin cfg0.N, (cfg0.win 21).flush t = true ∧ i ∈ ((cfg0.win 21).blk t).view.set := by
  have hi0 : (i 0).val < 524288 := (i 0).isLt
  have hi1 : (i 1).val < 128 := (i 1).isLt
  let t : Fin cfg0.N := ⟨(i 0).val / 2048, by show _ < 256; omega⟩
  obtain ⟨e0, e1⟩ := idx21 t
  have ht : t.val = (i 0).val / 2048 := rfl
  refine ⟨t, flush0_21 t, ?_⟩
  rw [mem_blk]
  intro a
  match a with
  | ⟨0, _⟩ => show win0_21.index t (0 : Fin 2) * 2048 ≤ (i 0).val ∧ (i 0).val < win0_21.index t (0 : Fin 2) * 2048 + 2048; rw [e0, ht]; omega
  | ⟨1, _⟩ => show win0_21.index t (1 : Fin 2) * 128 ≤ (i 1).val ∧ (i 1).val < win0_21.index t (1 : Fin 2) * 128 + 128; rw [e1]; omega

/-- THE ARRAY after the run: the encoder of the input. -/
theorem final (c : Dev nD) : (dats m 0 c).arrAt 21 cfg0.N = encode (argParams m c) (argX m c) :=
  (dats m 0 c).arrAt_eq_of_cover 21 (encode (argParams m c) (argX m c)) (fun t _ => flushed_eq m c t) covered

/-- The run, re-posted: the result array is the encoder of the input, the arguments unchanged. -/
theorem run : θ_run defs (onTc (τ := τ) (main (F := Ideal))) ⟨m, fun _ => 0, ρ⟩ fun r => ∀ c : Dev nD,
      r.2.mem ((c : Thread nD τ).loc main_v12) = encode (argParams m c) (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelIdeal.Final

end
-- ==== Proof.RefValue.lean ====
/-
  The reference computes the encoder row by row.

  The reference works on the whole 524288-row array at once, but none of its operations mixes rows: the seven
  slices keep the rows, each product with a small matrix and each sum along the last axis acts inside a row, the
  concatenation joins the seven results column-wise, and everything else is entry by entry, the vectors of shifts
  and gains and the one-column matrices of means and reciprocal square roots spread back over the rows. So each
  stage, read at row `r` and column `c`, is the matching expression of `Cert.Encoder` on row `r` of the input: the
  branches are `dense` on their stretches, the concatenation is `features` (the column decides the branch), the
  two normalisations are `normRelu` over 160 and 128 features with `fused` between them, and the result is
  `encodeRow`. The host's sums start from the float zero, which adds nothing over the extended reals.
-/
import proofs.«112894_j72249939853815_1_alg».proof.Proof.Gen.ReferenceIdeal.Read
import proofs.«112894_j72249939853815_1_alg».proof.Proof.Spec
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx

section Stages

variable (x0 : (⟨S524288x94, .f32⟩ : BufTy).Contents (Elt Ideal)) (x1 : (⟨S12x32, .f32⟩ : BufTy).Contents (Elt Ideal)) (x2 : (⟨S32, .f32⟩ : BufTy).Contents (Elt Ideal)) (x3 : (⟨S6x16, .f32⟩ : BufTy).Contents (Elt Ideal)) (x4 : (⟨S16, .f32⟩ : BufTy).Contents (Elt Ideal)) (x5 : (⟨S6x16, .f32⟩ : BufTy).Contents (Elt Ideal)) (x6 : (⟨S16, .f32⟩ : BufTy).Contents (Elt Ideal)) (x7 : (⟨S2x16, .f32⟩ : BufTy).Contents (Elt Ideal)) (x8 : (⟨S16, .f32⟩ : BufTy).Contents (Elt Ideal)) (x9 : (⟨S36x32, .f32⟩ : BufTy).Contents (Elt Ideal)) (x10 : (⟨S32, .f32⟩ : BufTy).Contents (Elt Ideal)) (x11 : (⟨S12x16, .f32⟩ : BufTy).Contents (Elt Ideal)) (x12 : (⟨S16, .f32⟩ : BufTy).Contents (Elt Ideal)) (x13 : (⟨S20x32, .f32⟩ : BufTy).Contents (Elt Ideal)) (x14 : (⟨S32, .f32⟩ : BufTy).Contents (Elt Ideal)) (x15 x16 : (⟨S160, .f32⟩ : BufTy).Contents (Elt Ideal)) (x17 : (⟨S160x128, .f32⟩ : BufTy).Contents (Elt Ideal)) (x18 x19 x20 : (⟨S128, .f32⟩ : BufTy).Contents (Elt Ideal))

/-- Row `r` of the input, as the function of the column the encoder takes. -/
abbrev xrow (r : Fin 524288) : Fin 94 → EReal := fun k => x0 (ix2 r k)

/-- The reference's arguments after the input, as the encoder's weights and shifts. -/
abbrev prm : Cert.Encoder.Params :=
  ⟨x1, x2, x3, x4, x5, x6, x7, x8, x9, x10, x11, x12, x13, x14, x15, x16, x17, x18, x19, x20⟩

/-! ## The seven branches

Each branch reads a stretch of the row, contracts it with its weights, adds its shift and clamps at zero: entry
`(r, j)` is `max (∑ k, x (r, lo + k) * w (k, j) + b j) 0`, which is `dense` on the stretch. -/

/-- The first branch: columns 0 to 11 of the row, 32 features. -/
theorem v5_at (r : Fin 524288) (j : Fin 32) :
    val_main_v5 (F := Ideal) x0 x1 x2 (ix2 r j)
      = Cert.Encoder.dense (Cert.Encoder.stretch (xrow x0 r) 0 12 (by omega)) x1 x2 j := by
  rw [val_main_v5_apply, val_main_v4_apply, val_main_v1_apply, val_main_v3_apply, val_main_v2_apply,
    val_main_call0_v0_apply, val_main_call0_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v0_apply]
    refine congrArg₂ (· * ·) (congrArg x0 ?_) (congrArg x1 ?_)
    · funext a; apply Fin.ext; match a with | ⟨0, _⟩ => rfl | ⟨1, _⟩ => exact (Nat.zero_add _).symm
    · funext a; apply Fin.ext; match a with | ⟨0, _⟩ => rfl | ⟨1, _⟩ => rfl
  · exact congrArg x2 (funext fun a => Fin.ext (by match a with | ⟨0, _⟩ => rfl))

/-- The second branch: columns 12 to 17 of the row, 16 features. -/
theorem v11_at (r : Fin 524288) (j : Fin 16) :
    val_main_v11 (F := Ideal) x0 x3 x4 (ix2 r j)
      = Cert.Encoder.dense (Cert.Encoder.stretch (xrow x0 r) 12 6 (by omega)) x3 x4 j := by
  rw [val_main_v11_apply, val_main_v10_apply, val_main_v7_apply, val_main_v9_apply, val_main_v8_apply,
    val_main_call1_v0_apply, val_main_call1_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v6_apply]
    refine congrArg₂ (· * ·) (congrArg x0 ?_) (congrArg x3 ?_)
    · funext a; apply Fin.ext; match a with | ⟨0, _⟩ => rfl | ⟨1, _⟩ => rfl
    · funext a; apply Fin.ext; match a with | ⟨0, _⟩ => rfl | ⟨1, _⟩ => rfl
  · exact congrArg x4 (funext fun a => Fin.ext (by match a with | ⟨0, _⟩ => rfl))

/-- The third branch: columns 18 to 23 of the row, 16 features. -/
theorem v17_at (r : Fin 524288) (j : Fin 16) :
    val_main_v17 (F := Ideal) x0 x5 x6 (ix2 r j)
      = Cert.Encoder.dense (Cert.Encoder.stretch (xrow x0 r) 18 6 (by omega)) x5 x6 j := by
  rw [val_main_v17_apply, val_main_v16_apply, val_main_v13_apply, val_main_v15_apply, val_main_v14_apply,
    val_main_call2_v0_apply, val_main_call2_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v12_apply]
    refine congrArg₂ (· * ·) (congrArg x0 ?_) (congrArg x5 ?_)
    · funext a; apply Fin.ext; match a with | ⟨0, _⟩ => rfl | ⟨1, _⟩ => rfl
    · funext a; apply Fin.ext; match a with | ⟨0, _⟩ => rfl | ⟨1, _⟩ => rfl
  · exact congrArg x6 (funext fun a => Fin.ext (by match a with | ⟨0, _⟩ => rfl))

/-- The fourth branch: columns 24 to 25 of the row, 16 features. -/
theorem v23_at (r : Fin 524288) (j : Fin 16) :
    val_main_v23 (F := Ideal) x0 x7 x8 (ix2 r j)
      = Cert.Encoder.dense (Cert.Encoder.stretch (xrow x0 r) 24 2 (by omega)) x7 x8 j := by
  rw [val_main_v23_apply, val_main_v22_apply, val_main_v19_apply, val_main_v21_apply, val_main_v20_apply,
    val_main_call3_v0_apply, val_main_call3_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v18_apply]
    refine congrArg₂ (· * ·) (congrArg x0 ?_) (congrArg x7 ?_)
    · funext a; apply Fin.ext; match a with | ⟨0, _⟩ => rfl | ⟨1, _⟩ => rfl
    · funext a; apply Fin.ext; match a with | ⟨0, _⟩ => rfl | ⟨1, _⟩ => rfl
  · exact congrArg x8 (funext fun a => Fin.ext (by match a with | ⟨0, _⟩ => rfl))

/-- The fifth branch: columns 26 to 61 of the row, 32 features. -/
theorem v29_at (r : Fin 524288) (j : Fin 32) :
    val_main_v29 (F := Ideal) x0 x9 x10 (ix2 r j)
      = Cert.Encoder.dense (Cert.Encoder.stretch (xrow x0 r) 26 36 (by omega)) x9 x10 j := by
  rw [val_main_v29_apply, val_main_v28_apply, val_main_v25_apply, val_main_v27_apply, val_main_v26_apply,
    val_main_call4_v0_apply, val_main_call4_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v24_apply]
    refine congrArg₂ (· * ·) (congrArg x0 ?_) (congrArg x9 ?_)
    · funext a; apply Fin.ext; match a with | ⟨0, _⟩ => rfl | ⟨1, _⟩ => rfl
    · funext a; apply Fin.ext; match a with | ⟨0, _⟩ => rfl | ⟨1, _⟩ => rfl
  · exact congrArg x10 (funext fun a => Fin.ext (by match a with | ⟨0, _⟩ => rfl))

/-- The sixth branch: columns 62 to 73 of the row, 16 features. -/
theorem v35_at (r : Fin 524288) (j : Fin 16) :
    val_main_v35 (F := Ideal) x0 x11 x12 (ix2 r j)
      = Cert.Encoder.dense (Cert.Encoder.stretch (xrow x0 r) 62 12 (by omega)) x11 x12 j := by
  rw [val_main_v35_apply, val_main_v34_apply, val_main_v31_apply, val_main_v33_apply, val_main_v32_apply,
    val_main_call5_v0_apply, val_main_call5_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v30_apply]
    refine congrArg₂ (· * ·) (congrArg x0 ?_) (congrArg x11 ?_)
    · funext a; apply Fin.ext; match a with | ⟨0, _⟩ => rfl | ⟨1, _⟩ => rfl
    · funext a; apply Fin.ext; match a with | ⟨0, _⟩ => rfl | ⟨1, _⟩ => rfl
  · exact congrArg x12 (funext fun a => Fin.ext (by match a with | ⟨0, _⟩ => rfl))

/-- The seventh branch: columns 74 to 93 of the row, 32 features. -/
theorem v41_at (r : Fin 524288) (j : Fin 32) :
    val_main_v41 (F := Ideal) x0 x13 x14 (ix2 r j)
      = Cert.Encoder.dense (Cert.Encoder.stretch (xrow x0 r) 74 20 (by omega)) x13 x14 j := by
  rw [val_main_v41_apply, val_main_v40_apply, val_main_v37_apply, val_main_v39_apply, val_main_v38_apply,
    val_main_call6_v0_apply, val_main_call6_cst_apply]
  simp only [Ideal.maximumf_def, Ideal.addf_def, Ideal.ofBits_def]
  unfold Cert.Encoder.dense Cert.Encoder.stretch
  refine congrArg₂ max (congrArg₂ (· + ·) (Finset.sum_congr rfl fun k _ => ?_) ?_) rfl
  · rw [val_main_v36_apply]
    refine congrArg₂ (· * ·) (congrArg x0 ?_) (congrArg x13 ?_)
    · funext a; apply Fin.ext; match a with | ⟨0, _⟩ => rfl | ⟨1, _⟩ => rfl
    · funext a; apply Fin.ext; match a with | ⟨0, _⟩ => rfl | ⟨1, _⟩ => rfl
  · exact congrArg x14 (funext fun a => Fin.ext (by match a with | ⟨0, _⟩ => rfl))

/-! ## The 160 features

The seven branches' results are laid side by side along the columns: column `c` comes from the branch whose span
holds it, at `c` less the widths of the branches before it. -/

/-- Row `r`, column `c` of the joined features is feature `c` of the row. -/
theorem v42_at (r : Fin 524288) (c : Fin 160) :
    val_main_v42 (F := Ideal) x0 x1 x2 x3 x4 x5 x6 x7 x8 x9 x10 x11 x12 x13 x14 (ix2 r c) = Cert.Encoder.features (prm x1 x2 x3 x4 x5 x6 x7 x8 x9 x10 x11 x12 x13 x14 x15 x16 x17 x18 x19 x20) (xrow x0 r) c := by
  unfold val_main_v42 Cert.Encoder.features
  by_cases h0 : c.val < 32
  · rw [dif_pos h0]
    refine (concatenate_apply_piece (1 : Fin 2) _ _ (ix2 r c) 0 ?_ S524288x32
      (val_main_v5 (F := Ideal) x0 x1 x2) ?_ ?_ 0 ?_ (ix2 r ⟨c.val, h0⟩) ?_ ?_).trans
      (v5_at x0 x1 x2 r ⟨c.val, h0⟩)
    · exact (by decide : 0 < 7)
    · rfl
    · rfl
    · rfl
    · intro b hb
      match b, hb with
      | ⟨0, _⟩, _ => rfl
      | ⟨1, _⟩, hb => exact absurd rfl hb
    · show 0 + c.val = c.val
      omega
  rw [dif_neg h0]
  by_cases h1 : c.val < 48
  · rw [dif_pos h1]
    refine (concatenate_apply_piece (1 : Fin 2) _ _ (ix2 r c) 1 ?_ S524288x16
      (val_main_v11 (F := Ideal) x0 x3 x4) ?_ ?_ 32 ?_ (ix2 r ⟨c.val - 32, by omega⟩) ?_ ?_).trans
      (v11_at x0 x3 x4 r ⟨c.val - 32, by omega⟩)
    · exact (by decide : 1 < 7)
    · rfl
    · rfl
    · rfl
    · intro b hb
      match b, hb with
      | ⟨0, _⟩, _ => rfl
      | ⟨1, _⟩, hb => exact absurd rfl hb
    · show 32 + (c.val - 32) = c.val
      omega
  rw [dif_neg h1]
  by_cases h2 : c.val < 64
  · rw [dif_pos h2]
    refine (concatenate_apply_piece (1 : Fin 2) _ _ (ix2 r c) 2 ?_ S524288x16
      (val_main_v17 (F := Ideal) x0 x5 x6) ?_ ?_ 48 ?_ (ix2 r ⟨c.val - 48, by omega⟩) ?_ ?_).trans
      (v17_at x0 x5 x6 r ⟨c.val - 48, by omega⟩)
    · exact (by decide : 2 < 7)
    · rfl
    · rfl
    · rfl
    · intro b hb
      match b, hb with
      | ⟨0, _⟩, _ => rfl
      | ⟨1, _⟩, hb => exact absurd rfl hb
    · show 48 + (c.val - 48) = c.val
      omega
  rw [dif_neg h2]
  by_cases h3 : c.val < 80
  · rw [dif_pos h3]
    refine (concatenate_apply_piece (1 : Fin 2) _ _ (ix2 r c) 3 ?_ S524288x16
      (val_main_v23 (F := Ideal) x0 x7 x8) ?_ ?_ 64 ?_ (ix2 r ⟨c.val - 64, by omega⟩) ?_ ?_).trans
      (v23_at x0 x7 x8 r ⟨c.val - 64, by omega⟩)
    · exact (by decide : 3 < 7)
    · rfl
    · rfl
    · rfl
    · intro b hb
      match b, hb with
      | ⟨0, _⟩, _ => rfl
      | ⟨1, _⟩, hb => exact absurd rfl hb
    · show 64 + (c.val - 64) = c.val
      omega
  rw [dif_neg h3]
  by_cases h4 : c.val < 112
  · rw [dif_pos h4]
    refine (concatenate_apply_piece (1 : Fin 2) _ _ (ix2 r c) 4 ?_ S524288x32
      (val_main_v29 (F := Ideal) x0 x9 x10) ?_ ?_ 80 ?_ (ix2 r ⟨c.val - 80, by omega⟩) ?_ ?_).trans
      (v29_at x0 x9 x10 r ⟨c.val - 80, by omega⟩)
    · exact (by decide : 4 < 7)
    · rfl
    · rfl
    · rfl
    · intro b hb
      match b, hb with
      | ⟨0, _⟩, _ => rfl
      | ⟨1, _⟩, hb => exact absurd rfl hb
    · show 80 + (c.val - 80) = c.val
      omega
  rw [dif_neg h4]
  by_cases h5 : c.val < 128
  · rw [dif_pos h5]
    refine (concatenate_apply_piece (1 : Fin 2) _ _ (ix2 r c) 5 ?_ S524288x16
      (val_main_v35 (F := Ideal) x0 x11 x12) ?_ ?_ 112 ?_ (ix2 r ⟨c.val - 112, by omega⟩) ?_ ?_).trans
      (v35_at x0 x11 x12 r ⟨c.val - 112, by omega⟩)
    · exact (by decide : 5 < 7)
    · rfl
    · rfl
    · rfl
    · intro b hb
      match b, hb with
      | ⟨0, _⟩, _ => rfl
      | ⟨1, _⟩, hb => exact absurd rfl hb
    · show 112 + (c.val - 112) = c.val
      omega
  rw [dif_neg h5]
  refine (concatenate_apply_piece (1 : Fin 2) _ _ (ix2 r c) 6 ?_ S524288x32
    (val_main_v41 (F := Ideal) x0 x13 x14) ?_ ?_ 128 ?_ (ix2 r ⟨c.val - 128, by have := c.isLt; omega⟩) ?_ ?_).trans
    (v41_at x0 x13 x14 r ⟨c.val - 128, by have := c.isLt; omega⟩)
  · exact (by decide : 6 < 7)
  · rfl
  · rfl
  · rfl
  · intro b hb
    match b, hb with
    | ⟨0, _⟩, _ => rfl
    | ⟨1, _⟩, hb => exact absurd rfl hb
  · show 128 + (c.val - 128) = c.val
    have := c.isLt; omega

/-! ## The first normalisation, over the 160 features -/

/-- The column of means: the sum of the row's features over the float 160. -/
theorem v46_at (r : Fin 524288) (z : Fin 1) :
    val_main_v46 (F := Ideal) x0 x1 x2 x3 x4 x5 x6 x7 x8 x9 x10 x11 x12 x13 x14 (ix2 r z)
      = Cert.Encoder.mean (Cert.Encoder.features (prm x1 x2 x3 x4 x5 x6 x7 x8 x9 x10 x11 x12 x13 x14 x15 x16 x17 x18 x19 x20) (xrow x0 r)) Cert.Encoder.n160W := by
  rw [val_main_v46_apply, val_main_v44_apply, val_main_v43_apply, val_main_v45_apply, val_main_cst_0_apply,
    val_main_cst_apply]
  simp only [Ideal.hostDivf_def, Ideal.ofBits_def, Ideal.ofBits_zero_f32, zero_add]
  unfold Cert.Encoder.mean
  refine congrArg₂ Ideal.div (Finset.sum_congr rfl fun k _ => ?_) rfl
  refine (congrArg (val_main_v42 (F := Ideal) x0 x1 x2 x3 x4 x5 x6 x7 x8 x9 x10 x11 x12 x13 x14) ?_).trans (v42_at x0 x1 x2 x3 x4 x5 x6 x7 x8 x9 x10 x11 x12 x13 x14 x15 x16 x17 x18 x19 x20 r k)
  funext a; apply Fin.ext; match a with | ⟨0, _⟩ => rfl | ⟨1, _⟩ => rfl

/-- A feature less the row's mean, as the reference forms it for the squared deviations … -/
theorem v48_at (r : Fin 524288) (c : Fin 160) :
    val_main_v48 (F := Ideal) x0 x1 x2 x3 x4 x5 x6 x7 x8 x9 x10 x11 x12 x13 x14 (ix2 r c)
      = Cert.Encoder.dev (Cert.Encoder.features (prm x1 x2 x3 x4 x5 x6 x7 x8 x9 x10 x11 x12 x13 x14 x15 x16 x17 x18 x19 x20) (xrow x0 r)) Cert.Encoder.n160W c := by
  rw [val_main_v48_apply, val_main_v47_apply]
  simp only [Ideal.subf_def]
  unfold Cert.Encoder.dev
  refine congrArg₂ (· - ·) (v42_at x0 x1 x2 x3 x4 x5 x6 x7 x8 x9 x10 x11 x12 x13 x14 x15 x16 x17 x18 x19 x20 r c) ?_
  refine (congrArg (val_main_v46 (F := Ideal) x0 x1 x2 x3 x4 x5 x6 x7 x8 x9 x10 x11 x12 x13 x14) ?_).trans (v46_at x0 x1 x2 x3 x4 x5 x6 x7 x8 x9 x10 x11 x12 x13 x14 x15 x16 x17 x18 x19 x20 r 0)
  funext a; apply Fin.ext; match a with | ⟨0, _⟩ => rfl | ⟨1, _⟩ => rfl

/-- … and again for the normalised value: the same difference. -/
theorem v55_at (r : Fin 524288) (c : Fin 160) :
    val_main_v55 (F := Ideal) x0 x1 x2 x3 x4 x5 x6 x7 x8 x9 x10 x11 x12 x13 x14 (ix2 r c)
      = Cert.Encoder.dev (Cert.Encoder.features (prm x1 x2 x3 x4 x5 x6 x7 x8 x9 x10 x11 x12 x13 x14 x15 x16 x17 x18 x19 x20) (xrow x0 r)) Cert.Encoder.n160W c := by
  rw [val_main_v55_apply, val_main_v54_apply]
  simp only [Ideal.subf_def]
  unfold Cert.Encoder.dev
  refine congrArg₂ (· - ·) (v42_at x0 x1 x2 x3 x4 x5 x6 x7 x8 x9 x10 x11 x12 x13 x14 x15 x16 x17 x18 x19 x20 r c) ?_
  refine (congrArg (val_main_v46 (F := Ideal) x0 x1 x2 x3 x4 x5 x6 x7 x8 x9 x10 x11 x12 x13 x14) ?_).trans (v46_at x0 x1 x2 x3 x4 x5 x6 x7 x8 x9 x10 x11 x12 x13 x14 x15 x16 x17 x18 x19 x20 r 0)
  funext a; apply Fin.ext; match a with | ⟨0, _⟩ => rfl | ⟨1, _⟩ => rfl

/-- The column of reciprocal square roots: of the mean squared deviation plus the small constant. -/
theorem v58_at (r : Fin 524288) (z : Fin 1) :
    val_main_v58 (F := Ideal) x0 x1 x2 x3 x4 x5 x6 x7 x8 x9 x10 x11 x12 x13 x14 (ix2 r z)
      = Cert.Encoder.invStd (Cert.Encoder.features (prm x1 x2 x3 x4 x5 x6 x7 x8 x9 x10 x11 x12 x13 x14 x15 x16 x17 x18 x19 x20) (xrow x0 r)) Cert.Encoder.n160W := by
  rw [val_main_v58_apply, val_main_v57_apply, val_main_v53_apply, val_main_v51_apply, val_main_v50_apply,
    val_main_v52_apply, val_main_cst_2_apply, val_main_v56_apply, val_main_cst_3_apply, val_main_cst_1_apply]
  simp only [Ideal.hostUnary_rsqrt_def, Ideal.addf_def, Ideal.hostDivf_def, Ideal.ofBits_def, Ideal.ofBits_zero_f32,
    zero_add]
  unfold Cert.Encoder.invStd
  refine congrArg Ideal.rsqrt (congrArg₂ (· + ·) (congrArg₂ Ideal.div (Finset.sum_congr rfl fun k _ => ?_) rfl) rfl)
  rw [val_main_v49_apply]
  simp only [Ideal.mulf_def]
  have e : idx_main_v50 (idx_main_v51 (ix2 r z)) k = ix2 r k := by
    funext a; apply Fin.ext; match a with | ⟨0, _⟩ => rfl | ⟨1, _⟩ => rfl
  rw [e, v48_at x0 x1 x2 x3 x4 x5 x6 x7 x8 x9 x10 x11 x12 x13 x14 x15 x16 x17 x18 x19 x20 r k]

/-- The first normalisation and its clamp: the deviation times the reciprocal square root, times the gain, plus the
    shift, clamped at zero. -/
theorem v67_at (r : Fin 524288) (c : Fin 160) :
    val_main_v67 (F := Ideal) x0 x1 x2 x3 x4 x5 x6 x7 x8 x9 x10 x11 x12 x13 x14 x15 x16 (ix2 r c)
      = Cert.Encoder.normRelu (Cert.Encoder.features (prm x1 x2 x3 x4 x5 x6 x7 x8 x9 x10 x11 x12 x13 x14 x15 x16 x17 x18 x19 x20) (xrow x0 r)) Cert.Encoder.n160W x15 x16 c := by
  rw [val_main_v67_apply, val_main_v66_apply, val_main_v63_apply, val_main_v60_apply, val_main_v59_apply,
    val_main_v62_apply, val_main_v61_apply, val_main_v65_apply, val_main_v64_apply, val_main_call7_v0_apply,
    val_main_call7_cst_apply]
  simp only [Ideal.maximumf_def, Ideal.addf_def, Ideal.mulf_def, Ideal.ofBits_def]
  unfold Cert.Encoder.normRelu
  refine congrArg₂ max (congrArg₂ (· + ·) (congrArg₂ (· * ·) (congrArg₂ (· * ·) (v55_at x0 x1 x2 x3 x4 x5 x6 x7 x8 x9 x10 x11 x12 x13 x14 x15 x16 x17 x18 x19 x20 r c) ?_) ?_) ?_) rfl
  · refine (congrArg (val_main_v58 (F := Ideal) x0 x1 x2 x3 x4 x5 x6 x7 x8 x9 x10 x11 x12 x13 x14) ?_).trans (v58_at x0 x1 x2 x3 x4 x5 x6 x7 x8 x9 x10 x11 x12 x13 x14 x15 x16 x17 x18 x19 x20 r 0)
    funext a; apply Fin.ext; match a with | ⟨0, _⟩ => rfl | ⟨1, _⟩ => rfl
  · exact congrArg x15 (funext fun a => Fin.ext (by match a with | ⟨0, _⟩ => rfl))
  · exact congrArg x16 (funext fun a => Fin.ext (by match a with | ⟨0, _⟩ => rfl))

/-! ## The map to 128 features -/

/-- The normalised features contracted with the fusing weights, plus the fusing shift. -/
theorem v71_at (r : Fin 524288) (q : Fin 128) :
    val_main_v71 (F := Ideal) x0 x1 x2 x3 x4 x5 x6 x7 x8 x9 x10 x11 x12 x13 x14 x15 x16 x17 x18 (ix2 r q) = Cert.Encoder.fused (prm x1 x2 x3 x4 x5 x6 x7 x8 x9 x10 x11 x12 x13 x14 x15 x16 x17 x18 x19 x20) (xrow x0 r) q := by
  rw [val_main_v71_apply, val_main_v68_apply, val_main_v70_apply, val_main_v69_apply]
  simp only [Ideal.addf_def]
  unfold Cert.Encoder.fused
  refine congrArg₂ (· + ·) (Finset.sum_congr rfl fun k _ => ?_) ?_
  · refine congrArg₂ (· * ·) ?_ (congrArg x17 ?_)
    · refine (congrArg (val_main_v67 (F := Ideal) x0 x1 x2 x3 x4 x5 x6 x7 x8 x9 x10 x11 x12 x13 x14 x15 x16) ?_).trans (v67_at x0 x1 x2 x3 x4 x5 x6 x7 x8 x9 x10 x11 x12 x13 x14 x15 x16 x17 x18 x19 x20 r k)
      funext a; apply Fin.ext; match a with | ⟨0, _⟩ => rfl | ⟨1, _⟩ => rfl
    · funext a; apply Fin.ext; match a with | ⟨0, _⟩ => rfl | ⟨1, _⟩ => rfl
  · exact congrArg x18 (funext fun a => Fin.ext (by match a with | ⟨0, _⟩ => rfl))

/-! ## The second normalisation, over the 128 features -/

/-- The column of means of the 128 features: their sum over the float 128. -/
theorem v75_at (r : Fin 524288) (z : Fin 1) :
    val_main_v75 (F := Ideal) x0 x1 x2 x3 x4 x5 x6 x7 x8 x9 x10 x11 x12 x13 x14 x15 x16 x17 x18 (ix2 r z)
      = Cert.Encoder.mean (Cert.Encoder.fused (prm x1 x2 x3 x4 x5 x6 x7 x8 x9 x10 x11 x12 x13 x14 x15 x16 x17 x18 x19 x20) (xrow x0 r)) Cert.Encoder.n128W := by
  rw [val_main_v75_apply, val_main_v73_apply, val_main_v72_apply, val_main_v74_apply, val_main_cst_5_apply,
    val_main_cst_4_apply]
  simp only [Ideal.hostDivf_def, Ideal.ofBits_def, Ideal.ofBits_zero_f32, zero_add]
  unfold Cert.Encoder.mean
  refine congrArg₂ Ideal.div (Finset.sum_congr rfl fun k _ => ?_) rfl
  refine (congrArg (val_main_v71 (F := Ideal) x0 x1 x2 x3 x4 x5 x6 x7 x8 x9 x10 x11 x12 x13 x14 x15 x16 x17 x18) ?_).trans (v71_at x0 x1 x2 x3 x4 x5 x6 x7 x8 x9 x10 x11 x12 x13 x14 x15 x16 x17 x18 x19 x20 r k)
  funext a; apply Fin.ext; match a with | ⟨0, _⟩ => rfl | ⟨1, _⟩ => rfl

/-- A fused feature less the row's mean, for the squared deviations … -/
theorem v77_at (r : Fin 524288) (q : Fin 128) :
    val_main_v77 (F := Ideal) x0 x1 x2 x3 x4 x5 x6 x7 x8 x9 x10 x11 x12 x13 x14 x15 x16 x17 x18 (ix2 r q)
      = Cert.Encoder.dev (Cert.Encoder.fused (prm x1 x2 x3 x4 x5 x6 x7 x8 x9 x10 x11 x12 x13 x14 x15 x16 x17 x18 x19 x20) (xrow x0 r)) Cert.Encoder.n128W q := by
  rw [val_main_v77_apply, val_main_v76_apply]
  simp only [Ideal.subf_def]
  unfold Cert.Encoder.dev
  refine congrArg₂ (· - ·) (v71_at x0 x1 x2 x3 x4 x5 x6 x7 x8 x9 x10 x11 x12 x13 x14 x15 x16 x17 x18 x19 x20 r q) ?_
  refine (congrArg (val_main_v75 (F := Ideal) x0 x1 x2 x3 x4 x5 x6 x7 x8 x9 x10 x11 x12 x13 x14 x15 x16 x17 x18) ?_).trans (v75_at x0 x1 x2 x3 x4 x5 x6 x7 x8 x9 x10 x11 x12 x13 x14 x15 x16 x17 x18 x19 x20 r 0)
  funext a; apply Fin.ext; match a with | ⟨0, _⟩ => rfl | ⟨1, _⟩ => rfl

/-- … and for the normalised value. -/
theorem v84_at (r : Fin 524288) (q : Fin 128) :
    val_main_v84 (F := Ideal) x0 x1 x2 x3 x4 x5 x6 x7 x8 x9 x10 x11 x12 x13 x14 x15 x16 x17 x18 (ix2 r q)
      = Cert.Encoder.dev (Cert.Encoder.fused (prm x1 x2 x3 x4 x5 x6 x7 x8 x9 x10 x11 x12 x13 x14 x15 x16 x17 x18 x19 x20) (xrow x0 r)) Cert.Encoder.n128W q := by
  rw [val_main_v84_apply, val_main_v83_apply]
  simp only [Ideal.subf_def]
  unfold Cert.Encoder.dev
  refine congrArg₂ (· - ·) (v71_at x0 x1 x2 x3 x4 x5 x6 x7 x8 x9 x10 x11 x12 x13 x14 x15 x16 x17 x18 x19 x20 r q) ?_
  refine (congrArg (val_main_v75 (F := Ideal) x0 x1 x2 x3 x4 x5 x6 x7 x8 x9 x10 x11 x12 x13 x14 x15 x16 x17 x18) ?_).trans (v75_at x0 x1 x2 x3 x4 x5 x6 x7 x8 x9 x10 x11 x12 x13 x14 x15 x16 x17 x18 x19 x20 r 0)
  funext a; apply Fin.ext; match a with | ⟨0, _⟩ => rfl | ⟨1, _⟩ => rfl

/-- The column of reciprocal square roots of the second normalisation. -/
theorem v87_at (r : Fin 524288) (z : Fin 1) :
    val_main_v87 (F := Ideal) x0 x1 x2 x3 x4 x5 x6 x7 x8 x9 x10 x11 x12 x13 x14 x15 x16 x17 x18 (ix2 r z)
      = Cert.Encoder.invStd (Cert.Encoder.fused (prm x1 x2 x3 x4 x5 x6 x7 x8 x9 x10 x11 x12 x13 x14 x15 x16 x17 x18 x19 x20) (xrow x0 r)) Cert.Encoder.n128W := by
  rw [val_main_v87_apply, val_main_v86_apply, val_main_v82_apply, val_main_v80_apply, val_main_v79_apply,
    val_main_v81_apply, val_main_cst_7_apply, val_main_v85_apply, val_main_cst_8_apply, val_main_cst_6_apply]
  simp only [Ideal.hostUnary_rsqrt_def, Ideal.addf_def, Ideal.hostDivf_def, Ideal.ofBits_def, Ideal.ofBits_zero_f32,
    zero_add]
  unfold Cert.Encoder.invStd
  refine congrArg Ideal.rsqrt (congrArg₂ (· + ·) (congrArg₂ Ideal.div (Finset.sum_congr rfl fun k _ => ?_) rfl) rfl)
  rw [val_main_v78_apply]
  simp only [Ideal.mulf_def]
  have e : idx_main_v79 (idx_main_v80 (ix2 r z)) k = ix2 r k := by
    funext a; apply Fin.ext; match a with | ⟨0, _⟩ => rfl | ⟨1, _⟩ => rfl
  rw [e, v77_at x0 x1 x2 x3 x4 x5 x6 x7 x8 x9 x10 x11 x12 x13 x14 x15 x16 x17 x18 x19 x20 r k]

/-- The reference's result at row `r`, column `q`: the row's code. -/
theorem v96_at (r : Fin 524288) (q : Fin 128) :
    val_main_v96 (F := Ideal) x0 x1 x2 x3 x4 x5 x6 x7 x8 x9 x10 x11 x12 x13 x14 x15 x16 x17 x18 x19 x20 (ix2 r q) = Cert.Encoder.encodeRow (prm x1 x2 x3 x4 x5 x6 x7 x8 x9 x10 x11 x12 x13 x14 x15 x16 x17 x18 x19 x20) (xrow x0 r) q := by
  rw [val_main_v96_apply, val_main_v95_apply, val_main_v92_apply, val_main_v89_apply, val_main_v88_apply,
    val_main_v91_apply, val_main_v90_apply, val_main_v94_apply, val_main_v93_apply, val_main_call8_v0_apply,
    val_main_call8_cst_apply]
  simp only [Ideal.maximumf_def, Ideal.addf_def, Ideal.mulf_def, Ideal.ofBits_def]
  unfold Cert.Encoder.encodeRow Cert.Encoder.normRelu
  refine congrArg₂ max (congrArg₂ (· + ·) (congrArg₂ (· * ·) (congrArg₂ (· * ·) (v84_at x0 x1 x2 x3 x4 x5 x6 x7 x8 x9 x10 x11 x12 x13 x14 x15 x16 x17 x18 x19 x20 r q) ?_) ?_) ?_) rfl
  · refine (congrArg (val_main_v87 (F := Ideal) x0 x1 x2 x3 x4 x5 x6 x7 x8 x9 x10 x11 x12 x13 x14 x15 x16 x17 x18) ?_).trans (v87_at x0 x1 x2 x3 x4 x5 x6 x7 x8 x9 x10 x11 x12 x13 x14 x15 x16 x17 x18 x19 x20 r 0)
    funext a; apply Fin.ext; match a with | ⟨0, _⟩ => rfl | ⟨1, _⟩ => rfl
  · exact congrArg x19 (funext fun a => Fin.ext (by match a with | ⟨0, _⟩ => rfl))
  · exact congrArg x20 (funext fun a => Fin.ext (by match a with | ⟨0, _⟩ => rfl))

end Stages

/-- The reference's result, as a function of its arguments, is the encoder of `Cert.Encoder`. -/
theorem ref_eq (x0 : (⟨S524288x94, .f32⟩ : BufTy).Contents (Elt Ideal)) (x1 : (⟨S12x32, .f32⟩ : BufTy).Contents (Elt Ideal)) (x2 : (⟨S32, .f32⟩ : BufTy).Contents (Elt Ideal)) (x3 : (⟨S6x16, .f32⟩ : BufTy).Contents (Elt Ideal)) (x4 : (⟨S16, .f32⟩ : BufTy).Contents (Elt Ideal)) (x5 : (⟨S6x16, .f32⟩ : BufTy).Contents (Elt Ideal)) (x6 : (⟨S16, .f32⟩ : BufTy).Contents (Elt Ideal)) (x7 : (⟨S2x16, .f32⟩ : BufTy).Contents (Elt Ideal)) (x8 : (⟨S16, .f32⟩ : BufTy).Contents (Elt Ideal)) (x9 : (⟨S36x32, .f32⟩ : BufTy).Contents (Elt Ideal)) (x10 : (⟨S32, .f32⟩ : BufTy).Contents (Elt Ideal)) (x11 : (⟨S12x16, .f32⟩ : BufTy).Contents (Elt Ideal)) (x12 : (⟨S16, .f32⟩ : BufTy).Contents (Elt Ideal)) (x13 : (⟨S20x32, .f32⟩ : BufTy).Contents (Elt Ideal)) (x14 : (⟨S32, .f32⟩ : BufTy).Contents (Elt Ideal)) (x15 x16 : (⟨S160, .f32⟩ : BufTy).Contents (Elt Ideal)) (x17 : (⟨S160x128, .f32⟩ : BufTy).Contents (Elt Ideal)) (x18 x19 x20 : (⟨S128, .f32⟩ : BufTy).Contents (Elt Ideal)) :
    val_main_v96 (F := Ideal) x0 x1 x2 x3 x4 x5 x6 x7 x8 x9 x10 x11 x12 x13 x14 x15 x16 x17 x18 x19 x20
      = Cert.Encoder.encode ⟨x1, x2, x3, x4, x5, x6, x7, x8, x9, x10, x11, x12, x13, x14, x15, x16, x17, x18, x19, x20⟩ x0 := by
  funext j
  obtain ⟨r, q, rfl⟩ : ∃ r q, j = ix2 r q := ⟨j 0, j 1, eq_ix2 j⟩
  exact v96_at x0 x1 x2 x3 x4 x5 x6 x7 x8 x9 x10 x11 x12 x13 x14 x15 x16 x17 x18 x19 x20 r q

end Cert.ReferenceIdeal.RefValue

end
-- ==== Proof.lean ====
/-
  The certificate: a Pallas encoder and its jnp reference compute the same array.

  Both programs encode each of the 524288 rows of the input on its own: seven stretches of the row go through an
  affine map and a clamp at zero, the 160 results are normalised and clamped, mapped affinely to 128 features,
  normalised and clamped again (Proof/Spec.lean spells this row function out over the extended reals). The kernel
  does it 2048 rows at a time, the seven branches' results gathered in a scratch buffer before the first
  normalisation; the reference does it on the whole array, the seven results joined by a concatenation. Over the
  extended reals the two spell the same arithmetic, operation by operation and constant by constant: a change of
  float format is the identity, the kernel's matrix products into a zero start and row sums are the reference's
  products and sums, and no algebraic law is needed to pass from one to the other, so the precondition's finiteness
  is never opened.

  The three frames are the generated ones (the reference's is its generated run with the value dropped); the
  idealization ledger is empty. For the value claim the result array of the kernel's run is read off its generated
  frame run block by block (Proof/Stored.lean: what a grid point leaves in its output block; Proof/Final.lean: the
  256 blocks tile the output), the reference's off its generated run one operation at a time
  (Proof/RefValue.lean), and both are the one function `Cert.Encoder.encode` of arguments that agree.
-/
import proofs.«112894_j72249939853815_1_alg».proof.Defs
import proofs.«112894_j72249939853815_1_alg».proof.Proof.Gen.Kernel
import proofs.«112894_j72249939853815_1_alg».proof.Proof.Gen.Kernel.Skeleton
import proofs.«112894_j72249939853815_1_alg».proof.Proof.Gen.Kernel.Launch
import proofs.«112894_j72249939853815_1_alg».proof.Proof.Gen.Kernel.Points
import proofs.«112894_j72249939853815_1_alg».proof.Proof.Gen.Kernel.Frame
import proofs.«112894_j72249939853815_1_alg».proof.Proof.Gen.KernelIdeal
import proofs.«112894_j72249939853815_1_alg».proof.Proof.Gen.KernelIdeal.Skeleton
import proofs.«112894_j72249939853815_1_alg».proof.Proof.Gen.KernelIdeal.Launch
import proofs.«112894_j72249939853815_1_alg».proof.Proof.Gen.KernelIdeal.Points
import proofs.«112894_j72249939853815_1_alg».proof.Proof.Gen.KernelIdeal.Frame
import proofs.«112894_j72249939853815_1_alg».proof.Proof.Gen.ReferenceIdeal
import proofs.«112894_j72249939853815_1_alg».proof.Proof.Gen.Pre_finite_inputs
import proofs.«112894_j72249939853815_1_alg».proof.Proof.Gen.KernelIdeal.Value
import proofs.«112894_j72249939853815_1_alg».proof.Proof.Gen.ReferenceIdeal.Run
import proofs.«112894_j72249939853815_1_alg».proof.Proof.Gen.ReferenceIdeal.Read
import proofs.«112894_j72249939853815_1_alg».proof.Proof.Final
import proofs.«112894_j72249939853815_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, the idealized kernel ends with its result array at the encoder of
    its arguments and the idealized reference with its own at the encoder of its arguments: one array. -/
theorem algebraic : Cert.algebraic_KernelIdeal_ReferenceIdeal := by
  intro m ρ m' ρ' _ hagree
  refine ⟨fun c => Cert.Encoder.encode (Cert.KernelIdeal.Final.argParams m c) (Cert.KernelIdeal.Final.argX m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v96_eq, Cert.ReferenceIdeal.RefValue.ref_eq, h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
